-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x300 : Shape := ⟨2, ![65536, 300]⟩
abbrev S65536x4x256 : Shape := ⟨3, ![65536, 4, 256]⟩
abbrev S768x300 : Shape := ⟨2, ![768, 300]⟩
abbrev S768 : Shape := ⟨1, ![768]⟩
abbrev S768x256 : Shape := ⟨2, ![768, 256]⟩
abbrev S256x300 : Shape := ⟨2, ![256, 300]⟩
abbrev S256 : Shape := ⟨1, ![256]⟩
abbrev S256x256 : Shape := ⟨2, ![256, 256]⟩
abbrev S_ : Shape := ⟨0, ![]⟩

class Facts : Prop where
  bcast_S_S65536x300 : S_.BroadcastsInDim S65536x300 (![] : Fin 0 → Fin S65536x300.rank)
  reducesTo_S65536x300_S_d0_1 : S65536x300.ReducesTo [0, 1] S_
  h_S_ : 0 < S_.numel
  bcast_S_S65536x4x256 : S_.BroadcastsInDim S65536x4x256 (![] : Fin 0 → Fin S65536x4x256.rank)
  reducesTo_S65536x4x256_S_d0_1_2 : S65536x4x256.ReducesTo [0, 1, 2] S_
  bcast_S_S768x300 : S_.BroadcastsInDim S768x300 (![] : Fin 0 → Fin S768x300.rank)
  reducesTo_S768x300_S_d0_1 : S768x300.ReducesTo [0, 1] S_
  bcast_S_S768 : S_.BroadcastsInDim S768 (![] : Fin 0 → Fin S768.rank)
  reducesTo_S768_S_d0 : S768.ReducesTo [0] S_
  bcast_S_S768x256 : S_.BroadcastsInDim S768x256 (![] : Fin 0 → Fin S768x256.rank)
  reducesTo_S768x256_S_d0_1 : S768x256.ReducesTo [0, 1] S_
  bcast_S_S256x300 : S_.BroadcastsInDim S256x300 (![] : Fin 0 → Fin S256x300.rank)
  reducesTo_S256x300_S_d0_1 : S256x300.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part3 {F : FTy → Type} [FloatOps F] (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  main_v53

def fn_part2 {F : FTy → Type} [FloatOps F] (main_arg7 : FVec F S256x300 .f32) (main_arg8 : FVec F S256 .f32) (main_arg9 : FVec F S256x256 .f32) (main_arg10 : FVec F S256 .f32) (main_v33 : IVec S_ 1) : IVec S_ 1 :=
  let main_v34 : FVec F S256x300 .f32 := Host.absf main_arg7
  let main_cst_12 : FVec F S_ .f32 := constant S_ .f32 0x7F800000#32
  let main_v35 : FVec F S256x300 .f32 := broadcastInDim S256x300 ![] bcast_S_S256x300 main_cst_12
  let main_v36 : IVec S256x300 1 := cmpf .olt main_v34 main_v35
  let main_c_13 : IVec S_ 1 := constantI S_ 1 1#1
  let main_v37 : IVec S_ 1 := (fun x v => Host.reduce IntOp.andi x v reducesTo_S256x300_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_v48 main_v49 main_v50

def fn_part1 {F : FTy → Type} [FloatOps F] (main_arg4 : FVec F S768 .f32) (main_arg5 : FVec F S768x256 .f32) (main_arg6 : FVec F S768 .f32) (main_arg7 : FVec F S256x300 .f32) (main_arg8 : FVec F S256 .f32) (main_arg9 : FVec F S256x256 .f32) (main_arg10 : FVec F S256 .f32) (main_v13 : IVec S_ 1) (main_v16 : IVec S768x300 1) : IVec S_ 1 :=
  let main_c_5 : IVec S_ 1 := constantI S_ 1 1#1
  let main_v17 : IVec S_ 1 := (fun x v => Host.reduce IntOp.andi x v reducesTo_S768x300_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768x256 .f32 := Host.absf main_arg5
  let main_cst_8 : FVec F S_ .f32 := constant S_ .f32 0x7F800000#32
  let main_v25 : FVec F S768x256 .f32 := broadcastInDim S768x256 ![] bcast_S_S768x256 main_cst_8
  let main_v26 : IVec S768x256 1 := cmpf .olt main_v24 main_v25
  let main_c_9 : IVec S_ 1 := constantI S_ 1 1#1
  let main_v27 : IVec S_ 1 := (fun x v => Host.reduce IntOp.andi x v reducesTo_S768x256_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S65536x300 .f32) (main_arg1 : FVec F S65536x4x256 .f32) (main_arg2 : FVec F S65536x4x256 .f32) (main_arg3 : FVec F S768x300 .f32) (main_arg4 : FVec F S768 .f32) (main_arg5 : FVec F S768x256 .f32) (main_arg6 : FVec F S768 .f32) (main_arg7 : FVec F S256x300 .f32) (main_arg8 : FVec F S256 .f32) (main_arg9 : FVec F S256x256 .f32) (main_arg10 : FVec F S256 .f32) : IVec S_ 1 :=
  let main_v0 : FVec F S65536x300 .f32 := Host.absf main_arg0
  let main_cst : FVec F S_ .f32 := constant S_ .f32 0x7F800000#32
  let main_v1 : FVec F S65536x300 .f32 := broadcastInDim S65536x300 ![] bcast_S_S65536x300 main_cst
  let main_v2 : IVec S65536x300 1 := cmpf .olt main_v0 main_v1
  let main_c : IVec S_ 1 := constantI S_ 1 1#1
  let main_v3 : IVec S_ 1 := (fun x v => Host.reduce IntOp.andi x v reducesTo_S65536x300_S_d0_1 h_S_) main_v2 main_c
  let main_v4 : FVec F S65536x4x256 .f32 := Host.absf main_arg1
  let main_cst_0 : FVec F S_ .f32 := constant S_ .f32 0x7F800000#32
  let main_v5 : FVec F S65536x4x256 .f32 := broadcastInDim S65536x4x256 ![] bcast_S_S65536x4x256 main_cst_0
  let main_v6 : IVec S65536x4x256 1 := cmpf .olt main_v4 main_v5
  let main_c_1 : IVec S_ 1 := constantI S_ 1 1#1
  let main_v7 : IVec S_ 1 := (fun x v => Host.reduce IntOp.andi x v reducesTo_S65536x4x256_S_d0_1_2 h_S_) main_v6 main_c_1
  let main_v8 : IVec S_ 1 := andi main_v3 main_v7
  let main_v9 : FVec F S65536x4x256 .f32 := Host.absf main_arg2
  let main_cst_2 : FVec F S_ .f32 := constant S_ .f32 0x7F800000#32
  let main_v10 : FVec F S65536x4x256 .f32 := broadcastInDim S65536x4x256 ![] bcast_S_S65536x4x256 main_cst_2
  let main_v11 : IVec S65536x4x256 1 := cmpf .olt main_v9 main_v10
  let main_c_3 : IVec S_ 1 := constantI S_ 1 1#1
  let main_v12 : IVec S_ 1 := (fun x v => Host.reduce IntOp.andi x v reducesTo_S65536x4x256_S_d0_1_2 h_S_) main_v11 main_c_3
  let main_v13 : IVec S_ 1 := andi main_v8 main_v12
  let main_v14 : FVec F S768x300 .f32 := Host.absf main_arg3
  let main_cst_4 : FVec F S_ .f32 := constant S_ .f32 0x7F800000#32
  let main_v15 : FVec F S768x300 .f32 := broadcastInDim S768x300 ![] bcast_S_S768x300 main_cst_4
  let main_v16 : IVec S768x300 1 := cmpf .olt main_v14 main_v15
  fn_part1 (F := F) main_arg4 main_arg5 main_arg6 main_arg7 main_arg8 main_arg9 main_arg10 main_v13 main_v16
-- ==== Kernel.lean ====
abbrev S65536x300 : Shape := ⟨2, ![65536, 300]⟩
abbrev S65536x4x256 : Shape := ⟨3, ![65536, 4, 256]⟩
abbrev S768x300 : Shape := ⟨2, ![768, 300]⟩
abbrev S768 : Shape := ⟨1, ![768]⟩
abbrev S768x256 : Shape := ⟨2, ![768, 256]⟩
abbrev S256x300 : Shape := ⟨2, ![256, 300]⟩
abbrev S256 : Shape := ⟨1, ![256]⟩
abbrev S256x256 : Shape := ⟨2, ![256, 256]⟩
abbrev S300x256 : Shape := ⟨2, ![300, 256]⟩
abbrev S300x768 : Shape := ⟨2, ![300, 768]⟩
abbrev S256x768 : Shape := ⟨2, ![256, 768]⟩
abbrev S1x256 : Shape := ⟨2, ![1, 256]⟩
abbrev S1x768 : Shape := ⟨2, ![1, 768]⟩
abbrev S2x65536x256 : Shape := ⟨3, ![2, 65536, 256]⟩
abbrev S512x300 : Shape := ⟨2, ![512, 300]⟩
abbrev S512x4x256 : Shape := ⟨3, ![512, 4, 256]⟩
abbrev S2x512x256 : Shape := ⟨3, ![2, 512, 256]⟩
abbrev S512x256 : Shape := ⟨2, ![512, 256]⟩
abbrev S512x1x256 : Shape := ⟨3, ![512, 1, 256]⟩
abbrev S512x768 : Shape := ⟨2, ![512, 768]⟩
abbrev S1x512x256 : Shape := ⟨3, ![1, 512, 256]⟩

abbrev nBuf : Space → Nat
  | .hbm => 24
  | .vmem => 16
  | .smem => 0
  | _ => 0

abbrev bufTy : (tb : Table) → Fin (tcTables nBuf tb) → BufTy
  | .hbm, ⟨0, _⟩ => ⟨S65536x300, .f32⟩
  | .hbm, ⟨1, _⟩ => ⟨S65536x4x256, .f32⟩
  | .hbm, ⟨2, _⟩ => ⟨S65536x4x256, .f32⟩
  | .hbm, ⟨3, _⟩ => ⟨S768x300, .f32⟩
  | .hbm, ⟨4, _⟩ => ⟨S768, .f32⟩
  | .hbm, ⟨5, _⟩ => ⟨S768x256, .f32⟩
  | .hbm, ⟨6, _⟩ => ⟨S768, .f32⟩
  | .hbm, ⟨7, _⟩ => ⟨S256x300, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S300x256, .f32⟩
  | .hbm, ⟨12, _⟩ => ⟨S300x256, .bf16⟩
  | .hbm, ⟨13, _⟩ => ⟨S256x256, .f32⟩
  | .hbm, ⟨14, _⟩ => ⟨S256x256, .bf16⟩
  | .hbm, ⟨15, _⟩ => ⟨S300x768, .f32⟩
  | .hbm, ⟨16, _⟩ => ⟨S300x768, .bf16⟩
  | .hbm, ⟨17, _⟩ => ⟨S256x768, .f32⟩
  | .hbm, ⟨18, _⟩ => ⟨S256x768, .bf16⟩
  | .hbm, ⟨19, _⟩ => ⟨S1x256, .f32⟩
  | .hbm, ⟨20, _⟩ => ⟨S1x256, .f32⟩
  | .hbm, ⟨21, _⟩ => ⟨S1x768, .f32⟩
  | .hbm, ⟨22, _⟩ => ⟨S1x768, .f32⟩
  | .hbm, ⟨23, _⟩ => ⟨S2x65536x256, .f32⟩
  | .local _ .vmem, ⟨0, _⟩ => ⟨S512x300, .f32⟩
  | .local _ .vmem, ⟨1, _⟩ => ⟨S512x300, .f32⟩
  | .local _ .vmem, ⟨2, _⟩ => ⟨S512x4x256, .f32⟩
  | .local _ .vmem, ⟨3, _⟩ => ⟨S512x4x256, .f32⟩
  | .local _ .vmem, ⟨4, _⟩ => ⟨S512x4x256, .f32⟩
  | .local _ .vmem, ⟨5, _⟩ => ⟨S512x4x256, .f32⟩
  | .local _ .vmem, ⟨6, _⟩ => ⟨S300x256, .bf16⟩
  | .local _ .vmem, ⟨7, _⟩ => ⟨S1x256, .f32⟩
  | .local _ .vmem, ⟨8, _⟩ => ⟨S256x256, .bf16⟩
  | .local _ .vmem, ⟨9, _⟩ => ⟨S1x256, .f32⟩
  | .local _ .vmem, ⟨10, _⟩ => ⟨S300x768, .bf16⟩
  | .local _ .vmem, ⟨11, _⟩ => ⟨S1x768, .f32⟩
  | .local _ .vmem, ⟨12, _⟩ => ⟨S256x768, .bf16⟩
  | .local _ .vmem, ⟨13, _⟩ => ⟨S1x768, .f32⟩
  | .local _ .vmem, ⟨14, _⟩ => ⟨S2x512x256, .f32⟩
  | .local _ .vmem, ⟨15, _⟩ => ⟨S2x512x256, .f32⟩
  | _, _ => ⟨S65536x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S300x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S300x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x768 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2x512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  transposes_S256x300_S300x256_1_0 : S256x300.Transposes [1, 0] S300x256
  bitsLt_bf16_f32 : FTy.bits .bf16 < FTy.bits .f32
  transposes_S256x256_S256x256_1_0 : S256x256.Transposes [1, 0] S256x256
  transposes_S768x300_S300x768_1_0 : S768x300.Transposes [1, 0] S300x768
  transposes_S768x256_S256x768_1_0 : S768x256.Transposes [1, 0] S256x768
  shapeCasts_S256_S1x256 : S256.ShapeCasts S1x256
  shapeCasts_S768_S1x768 : S768.ShapeCasts S1x768
  inb_S512x300_S512x300_0_0 : ∀ a, (![0, 0] : Fin 2 → Nat) a + S512x300.size a ≤ S512x300.size a
  h_S512x300 : 0 < S512x300.numel
  inb_S300x256_S300x256_0_0 : ∀ a, (![0, 0] : Fin 2 → Nat) a + S300x256.size a ≤ S300x256.size a
  h_S300x256 : 0 < S300x256.numel
  shapeCasts_S300x256_S300x256 : S300x256.ShapeCasts S300x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x4x256_S512x1x256_0_0_0 : ∀ a, (![0, 0, 0] : Fin 3 → Nat) a + S512x1x256.size a ≤ S512x4x256.size a
  h_S512x1x256 : 0 < S512x1x256.numel
  shapeCasts_S512x1x256_S512x256 : S512x1x256.ShapeCasts S512x256
  inb_S512x4x256_S512x1x256_0_1_0 : ∀ a, (![0, 1, 0] : Fin 3 → Nat) a + S512x1x256.size a ≤ S512x4x256.size a
  inb_S512x4x256_S512x1x256_0_2_0 : ∀ a, (![0, 2, 0] : Fin 3 → Nat) a + S512x1x256.size a ≤ S512x4x256.size a
  inb_S512x4x256_S512x1x256_0_3_0 : ∀ a, (![0, 3, 0] : Fin 3 → Nat) a + S512x1x256.size a ≤ S512x4x256.size a
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S300x768_S300x768_0_0 : ∀ a, (![0, 0] : Fin 2 → Nat) a + S300x768.size a ≤ S300x768.size a
  h_S300x768 : 0 < S300x768.numel
  shapeCasts_S300x768_S300x768 : S300x768.ShapeCasts S300x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S512x768 : S1x768.Broadcasts S512x768
  inb_S256x768_S256x768_0_0 : ∀ a, (![0, 0] : Fin 2 → Nat) a + S256x768.size a ≤ S256x768.size a
  h_S256x768 : 0 < S256x768.numel
  shapeCasts_S256x768_S256x768 : S256x768.ShapeCasts S256x768
  slices_S512x768_o0_0_S512x256 : S512x768.Slices ![0, 0] S512x256
  slices_S512x768_o0_256_S512x256 : S512x768.Slices ![0, 256] S512x256
  slices_S512x768_o0_512_S512x256 : S512x768.Slices ![0, 512] S512x256
  inb_S2x512x256_S1x512x256_0_0_0 : ∀ a, (![0, 0, 0] : Fin 3 → Nat) a + S1x512x256.size a ≤ S2x512x256.size a
  h_S1x512x256 : 0 < S1x512x256.numel
  shapeCasts_S1x512x256_S512x256 : S1x512x256.ShapeCasts S512x256
  shapeCasts_S512x256_S1x512x256 : S512x256.ShapeCasts S1x512x256
  inb_S2x512x256_S1x512x256_1_0_0 : ∀ a, (![1, 0, 0] : Fin 3 → Nat) a + S1x512x256.size a ≤ S2x512x256.size a
  dot_S512x300_S300x256_S512x256_1_0_0_1_n_n_wf : DotDims.WF S512x300 S300x256 S512x256 [1] [0] [0] [1] [] []
  dot_S512x256_S256x256_S512x256_1_0_0_1_n_n_wf : DotDims.WF S512x256 S256x256 S512x256 [1] [0] [0] [1] [] []
  dot_S512x300_S300x768_S512x768_1_0_0_1_n_n_wf : DotDims.WF S512x300 S300x768 S512x768 [1] [0] [0] [1] [] []
  dot_S512x256_S256x768_S512x768_1_0_0_1_n_n_wf : DotDims.WF S512x256 S256x768 S512x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x300.size a ≤ S65536x300.size a
  hwx0_0 : ∀ i : grid0.Coords, EltTy.bits .f32 = 32 ∨ (Rect.block (s := S65536x300) S512x300.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4x256.size a ≤ S65536x4x256.size a
  hwx0_1 : ∀ i : grid0.Coords, EltTy.bits .f32 = 32 ∨ (Rect.block (s := S65536x4x256) S512x4x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4x256.size a ≤ S65536x4x256.size a
  hwx0_2 : ∀ i : grid0.Coords, EltTy.bits .f32 = 32 ∨ (Rect.block (s := S65536x4x256) S512x4x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S300x256.size a ≤ S300x256.size a
  hwx0_3 : ∀ i : grid0.Coords, EltTy.bits .bf16 = 32 ∨ (Rect.block (s := S300x256) S300x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S300x768.size a ≤ S300x768.size a
  hwx0_7 : ∀ i : grid0.Coords, EltTy.bits .bf16 = 32 ∨ (Rect.block (s := S300x768) S300x768.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x768.size a ≤ S1x768.size a
  hwx0_8 : ∀ i : grid0.Coords, EltTy.bits .f32 = 32 ∨ (Rect.block (s := S1x768) S1x768.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x768.size a ≤ S256x768.size a
  hwx0_9 : ∀ i : grid0.Coords, EltTy.bits .bf16 = 32 ∨ (Rect.block (s := S256x768) S256x768.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x768.size a ≤ S1x768.size a
  hwx0_10 : ∀ i : grid0.Coords, EltTy.bits .f32 = 32 ∨ (Rect.block (s := S1x768) S1x768.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2x512x256.size a ≤ S2x65536x256.size a
  hwx0_11 : ∀ i : grid0.Coords, EltTy.bits .f32 = 32 ∨ (Rect.block (s := S2x65536x256) S2x512x256.size (cc0_transform_11 i) (hinb0_11 i)).WholeWords (EltTy.packing .f32)

variable [Facts₀]

def dot_S512x300_S300x256_S512x256_1_0_0_1_n_n : DotDims S512x300 S300x256 S512x256 where
  lhsContracting := [1]
  rhsContracting := [0]
  lhsNonContracting := [0]
  rhsNonContracting := [1]
  lhsBatch := []
  rhsBatch := []
  wf := dot_S512x300_S300x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x300_S300x768_S512x768_1_0_0_1_n_n : DotDims S512x300 S300x768 S512x768 where
  lhsContracting := [1]
  rhsContracting := [0]
  lhsNonContracting := [0]
  rhsNonContracting := [1]
  lhsBatch := []
  rhsBatch := []
  wf := dot_S512x300_S300x768_S512x768_1_0_0_1_n_n_wf
def dot_S512x256_S256x768_S512x768_1_0_0_1_n_n : DotDims S512x256 S256x768 S512x768 where
  lhsContracting := [1]
  rhsContracting := [0]
  lhsNonContracting := [0]
  rhsNonContracting := [1]
  lhsBatch := []
  rhsBatch := []
  wf := dot_S512x256_S256x768_S512x768_1_0_0_1_n_n_wf

abbrev win0_0 : Pipeline.Window sig grid0 :=
  Pipeline.Window.ofSpec (Memref.whole main_arg0) S512x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x4x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S300x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S300x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x768.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S256x768.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S1x768.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v12) S2x512x256.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S65536x300 : Shape := ⟨2, ![65536, 300]⟩
abbrev S65536x4x256 : Shape := ⟨3, ![65536, 4, 256]⟩
abbrev S768x300 : Shape := ⟨2, ![768, 300]⟩
abbrev S768 : Shape := ⟨1, ![768]⟩
abbrev S768x256 : Shape := ⟨2, ![768, 256]⟩
abbrev S256x300 : Shape := ⟨2, ![256, 300]⟩
abbrev S256 : Shape := ⟨1, ![256]⟩
abbrev S256x256 : Shape := ⟨2, ![256, 256]⟩
abbrev S_ : Shape := ⟨0, ![]⟩
abbrev S65536x256 : Shape := ⟨2, ![65536, 256]⟩
abbrev S300x256 : Shape := ⟨2, ![300, 256]⟩
abbrev S1x256 : Shape := ⟨2, ![1, 256]⟩
abbrev S65536x1x256 : Shape := ⟨3, ![65536, 1, 256]⟩
abbrev S1x1x256 : Shape := ⟨3, ![1, 1, 256]⟩
abbrev S300x768 : Shape := ⟨2, ![300, 768]⟩
abbrev S65536x768 : Shape := ⟨2, ![65536, 768]⟩
abbrev S1x768 : Shape := ⟨2, ![1, 768]⟩
abbrev S256x768 : Shape := ⟨2, ![256, 768]⟩
abbrev S1x65536x256 : Shape := ⟨3, ![1, 65536, 256]⟩
abbrev S2x65536x256 : Shape := ⟨3, ![2, 65536, 256]⟩

abbrev nBuf : Space → Nat
  | .hbm => 74
  | .vmem => 0
  | .smem => 0
  | _ => 0

abbrev bufTy : (tb : Table) → Fin (tcTables nBuf tb) → BufTy
  | .hbm, ⟨0, _⟩ => ⟨S65536x300, .f32⟩
  | .hbm, ⟨1, _⟩ => ⟨S65536x4x256, .f32⟩
  | .hbm, ⟨2, _⟩ => ⟨S65536x4x256, .f32⟩
  | .hbm, ⟨3, _⟩ => ⟨S768x300, .f32⟩
  | .hbm, ⟨4, _⟩ => ⟨S768, .f32⟩
  | .hbm, ⟨5, _⟩ => ⟨S768x256, .f32⟩
  | .hbm, ⟨6, _⟩ => ⟨S768, .f32⟩
  | .hbm, ⟨7, _⟩ => ⟨S256x300, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S_, .f32⟩
  | .hbm, ⟨12, _⟩ => ⟨S65536x256, .f32⟩
  | .hbm, ⟨13, _⟩ => ⟨S300x256, .f32⟩
  | .hbm, ⟨14, _⟩ => ⟨S65536x256, .f32⟩
  | .hbm, ⟨15, _⟩ => ⟨S1x256, .f32⟩
  | .hbm, ⟨16, _⟩ => ⟨S65536x256, .f32⟩
  | .hbm, ⟨17, _⟩ => ⟨S65536x256, .f32⟩
  | .hbm, ⟨18, _⟩ => ⟨S65536x1x256, .f32⟩
  | .hbm, ⟨19, _⟩ => ⟨S65536x4x256, .f32⟩
  | .hbm, ⟨20, _⟩ => ⟨S1x1x256, .f32⟩
  | .hbm, ⟨21, _⟩ => ⟨S65536x4x256, .f32⟩
  | .hbm, ⟨22, _⟩ => ⟨S65536x4x256, .f32⟩
  | .hbm, ⟨23, _⟩ => ⟨S65536x4x256, .f32⟩
  | .hbm, ⟨24, _⟩ => ⟨S65536x4x256, .f32⟩
  | .hbm, ⟨25, _⟩ => ⟨S65536x4x256, .f32⟩
  | .hbm, ⟨26, _⟩ => ⟨S65536x4x256, .f32⟩
  | .hbm, ⟨27, _⟩ => ⟨S_, .f32⟩
  | .hbm, ⟨28, _⟩ => ⟨S65536x4x256, .f32⟩
  | .hbm, ⟨29, _⟩ => ⟨S65536x4x256, .f32⟩
  | .hbm, ⟨30, _⟩ => ⟨S_, .f32⟩
  | .hbm, ⟨31, _⟩ => ⟨S65536x4x256, .f32⟩
  | .hbm, ⟨32, _⟩ => ⟨S65536x4x256, .f32⟩
  | .hbm, ⟨33, _⟩ => ⟨S65536x4x256, .f32⟩
  | .hbm, ⟨34, _⟩ => ⟨S_, .f32⟩
  | .hbm, ⟨35, _⟩ => ⟨S65536x256, .f32⟩
  | .hbm, ⟨36, _⟩ => ⟨S300x768, .f32⟩
  | .hbm, ⟨37, _⟩ => ⟨S65536x768, .f32⟩
  | .hbm, ⟨38, _⟩ => ⟨S1x768, .f32⟩
  | .hbm, ⟨39, _⟩ => ⟨S65536x768, .f32⟩
  | .hbm, ⟨40, _⟩ => ⟨S65536x768, .f32⟩
  | .hbm, ⟨41, _⟩ => ⟨S256x768, .f32⟩
  | .hbm, ⟨42, _⟩ => ⟨S65536x768, .f32⟩
  | .hbm, ⟨43, _⟩ => ⟨S1x768, .f32⟩
  | .hbm, ⟨44, _⟩ => ⟨S65536x768, .f32⟩
  | .hbm, ⟨45, _⟩ => ⟨S65536x768, .f32⟩
  | .hbm, ⟨46, _⟩ => ⟨S65536x768, .f32⟩
  | .hbm, ⟨47, _⟩ => ⟨S65536x256, .f32⟩
  | .hbm, ⟨48, _⟩ => ⟨S65536x256, .f32⟩
  | .hbm, ⟨49, _⟩ => ⟨S65536x256, .f32⟩
  | .hbm, ⟨50, _⟩ => ⟨S65536x256, .f32⟩
  | .hbm, ⟨51, _⟩ => ⟨S65536x256, .f32⟩
  | .hbm, ⟨52, _⟩ => ⟨S_, .f32⟩
  | .hbm, ⟨53, _⟩ => ⟨S65536x256, .f32⟩
  | .hbm, ⟨54, _⟩ => ⟨S65536x256, .f32⟩
  | .hbm, ⟨55, _⟩ => ⟨S_, .f32⟩
  | .hbm, ⟨56, _⟩ => ⟨S65536x256, .f32⟩
  | .hbm, ⟨57, _⟩ => ⟨S65536x256, .f32⟩
  | .hbm, ⟨58, _⟩ => ⟨S65536x256, .f32⟩
  | .hbm, ⟨59, _⟩ => ⟨S65536x256, .f32⟩
  | .hbm, ⟨60, _⟩ => ⟨S_, .f32⟩
  | .hbm, ⟨61, _⟩ => ⟨S65536x256, .f32⟩
  | .hbm, ⟨62, _⟩ => ⟨S65536x256, .f32⟩
  | .hbm, ⟨63, _⟩ => ⟨S_, .f32⟩
  | .hbm, ⟨64, _⟩ => ⟨S65536x256, .f32⟩
  | .hbm, ⟨65, _⟩ => ⟨S65536x256, .f32⟩
  | .hbm, ⟨66, _⟩ => ⟨S65536x256, .f32⟩
  | .hbm, ⟨67, _⟩ => ⟨S65536x256, .f32⟩
  | .hbm, ⟨68, _⟩ => ⟨S65536x256, .f32⟩
  | .hbm, ⟨69, _⟩ => ⟨S65536x256, .f32⟩
  | .hbm, ⟨70, _⟩ => ⟨S65536x256, .f32⟩
  | .hbm, ⟨71, _⟩ => ⟨S1x65536x256, .f32⟩
  | .hbm, ⟨72, _⟩ => ⟨S1x65536x256, .f32⟩
  | .hbm, ⟨73, _⟩ => ⟨S2x65536x256, .f32⟩
  | _, _ => ⟨S65536x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_3 : Ref sig .tc := ⟨.hbm, 52, rfl⟩
abbrev main_v37 : Ref sig .tc := ⟨.hbm, 53, rfl⟩
abbrev main_v38 : Ref sig .tc := ⟨.hbm, 54, rfl⟩
abbrev main_cst_4 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_5 : Ref sig .tc := ⟨.hbm, 60, rfl⟩
abbrev main_v43 : Ref sig .tc := ⟨.hbm, 61, rfl⟩
abbrev main_v44 : Ref sig .tc := ⟨.hbm, 62, rfl⟩
abbrev main_cst_6 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]

class Facts₀ : Prop where
  reducesTo_S65536x4x256_S65536x256_d1 : S65536x4x256.ReducesTo [1] S65536x256
  h_S_ : 0 < S_.numel
  transposes_S256x300_S300x256_1_0 : S256x300.Transposes [1, 0] S300x256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S65536x256_S65536x1x256_0_2 : S65536x256.BroadcastsInDim S65536x1x256 (![0, 2] : Fin 2 → Fin S65536x1x256.rank)
  bcast_S256_S1x1x256_2 : S256.BroadcastsInDim S1x1x256 (![2] : Fin 1 → Fin S1x1x256.rank)
  bcast_S1x1x256_S65536x4x256_0_1_2 : S1x1x256.BroadcastsInDim S65536x4x256 (![0, 1, 2] : Fin 3 → Fin S65536x4x256.rank)
  bcast_S65536x1x256_S65536x4x256_0_1_2 : S65536x1x256.BroadcastsInDim S65536x4x256 (![0, 1, 2] : Fin 3 → Fin S65536x4x256.rank)
  bcast_S_S65536x4x256 : S_.BroadcastsInDim S65536x4x256 (![] : Fin 0 → Fin S65536x4x256.rank)
  transposes_S768x300_S300x768_1_0 : S768x300.Transposes [1, 0] S300x768
  bcast_S768_S1x768_1 : S768.BroadcastsInDim S1x768 (![1] : Fin 1 → Fin S1x768.rank)
  bcast_S1x768_S65536x768_0_1 : S1x768.BroadcastsInDim S65536x768 (![0, 1] : Fin 2 → Fin S65536x768.rank)
  transposes_S768x256_S256x768_1_0 : S768x256.Transposes [1, 0] S256x768
  slices_S65536x768_S65536x256_0_0 : S65536x768.Slices ![0, 0] S65536x256
  slices_S65536x768_S65536x256_0_256 : S65536x768.Slices ![0, 256] S65536x256
  slices_S65536x768_S65536x256_0_512 : S65536x768.Slices ![0, 512] S65536x256
  bcast_S_S65536x256 : S_.BroadcastsInDim S65536x256 (![] : Fin 0 → Fin S65536x256.rank)
  bcast_S65536x256_S1x65536x256_1_2 : S65536x256.BroadcastsInDim S1x65536x256 (![1, 2] : Fin 2 → Fin S1x65536x256.rank)
  concatenates_S1x65536x256_S1x65536x256_S2x65536x256_d0 : Shape.Concatenates [S1x65536x256, S1x65536x256] S2x65536x256 0
  dot_S65536x300_S300x256_S65536x256_1_0_0_1_n_n_wf : DotDims.WF S65536x300 S300x256 S65536x256 [1] [0] [0] [1] [] []
  dot_S65536x4x256_S256x256_S65536x4x256_2_1_01_0_n_n_wf : DotDims.WF S65536x4x256 S256x256 S65536x4x256 [2] [1] [0, 1] [0] [] []
  dot_S65536x300_S300x768_S65536x768_1_0_0_1_n_n_wf : DotDims.WF S65536x300 S300x768 S65536x768 [1] [0] [0] [1] [] []
  dot_S65536x256_S256x768_S65536x768_1_0_0_1_n_n_wf : DotDims.WF S65536x256 S256x768 S65536x768 [1] [0] [0] [1] [] []

variable [Facts₀]

def dot_S65536x300_S300x256_S65536x256_1_0_0_1_n_n : DotDims S65536x300 S300x256 S65536x256 where
  lhsContracting := [1]
  rhsContracting := [0]
  lhsNonContracting := [0]
  rhsNonContracting := [1]
  lhsBatch := []
  rhsBatch := []
  wf := dot_S65536x300_S300x256_S65536x256_1_0_0_1_n_n_wf
def dot_S65536x4x256_S256x256_S65536x4x256_2_1_01_0_n_n : DotDims S65536x4x256 S256x256 S65536x4x256 where
  lhsContracting := [2]
  rhsContracting := [1]
  lhsNonContracting := [0, 1]
  rhsNonContracting := [0]
  lhsBatch := []
  rhsBatch := []
  wf := dot_S65536x4x256_S256x256_S65536x4x256_2_1_01_0_n_n_wf
def dot_S65536x300_S300x768_S65536x768_1_0_0_1_n_n : DotDims S65536x300 S300x768 S65536x768 where
  lhsContracting := [1]
  rhsContracting := [0]
  lhsNonContracting := [0]
  rhsNonContracting := [1]
  lhsBatch := []
  rhsBatch := []
  wf := dot_S65536x300_S300x768_S65536x768_1_0_0_1_n_n_wf
def dot_S65536x256_S256x768_S65536x768_1_0_0_1_n_n : DotDims S65536x256 S256x768 S65536x768 where
  lhsContracting := [1]
  rhsContracting := [0]
  lhsNonContracting := [0]
  rhsNonContracting := [1]
  lhsBatch := []
  rhsBatch := []
  wf := dot_S65536x256_S256x768_S65536x768_1_0_0_1_n_n_wf

class Facts : Prop extends Facts₀ where

variable [Facts]
-- ==== Proof.Spec.lean ====
/-
  The child-sum tree-LSTM cell over the extended reals, one node at a time.

  A node has an input row `xr` (300 features) and four children, each with a hidden row `hr k` and a memory row
  `cr k` (256 features). With the parameters `P`:

    wx g      = ∑ j, xr j · W_f[g, j] + b_Wf[g]                       the input's share of every forget gate
    uh k g    = ∑ q, hr k q · U_f[g, q] + b_Uf[g]                      child k's share of its own forget gate
    f k g     = σ (wx g + uh k g)                                      child k's forget gate
    c̃ g       = ∑ k, f k g · cr k g                                    the gated sum of the children's memories
    h̃ q       = ∑ k, hr k q                                            the sum of the children's hidden rows
    iou col   = (∑ j, xr j · W_iou[col, j] + b_iou[col]) + (∑ q, h̃ q · U_iou[col, q] + b_Uiou[col])
    c g       = σ (iou g) · tanh (iou (512 + g)) + c̃ g                 the node's memory
    h g       = σ (iou (256 + g)) · tanh (c g)                         the node's hidden state

  with σ the logistic function. The result array stacks the hidden states (member 0) on the memories (member 1).
  Everything is stated over functions into the extended reals; a sum of four terms written as a left-nested chain, with
  or without a leading zero, is the `Fin 4` sum, and the fused pre-activation may be associated either way: addition
  of extended reals is commutative and associative, and nothing here needs more.
-/
import Idealize.ShloMosaic.PureOps.Ideal
import Idealize.ShloMosaic.PureOps.Ideal.Laws
import Idealize.ShloMosaic.Lib.ValueIdx

noncomputable section

open scoped BigOperators

namespace Cert.TreeCell

open Idealize.ShloMosaic Idealize.ShloMosaic.ValueIdx

/-- The cell's parameters, each weight matrix as `output feature → input feature → value`. -/
@[ext] structure Params where
  wf : Fin 256 → Fin 300 → EReal
  bwf : Fin 256 → EReal
  uf : Fin 256 → Fin 256 → EReal
  buf : Fin 256 → EReal
  wiou : Fin 768 → Fin 300 → EReal
  biou : Fin 768 → EReal
  uiou : Fin 768 → Fin 256 → EReal
  buiou : Fin 768 → EReal

/-- Feature `g`'s column of the input gate in the fused 768-wide pre-activation, -/
def colI (g : Fin 256) : Fin 768 := ⟨g.val, by omega⟩
/-- of the output gate, -/
def colO (g : Fin 256) : Fin 768 := ⟨256 + g.val, by omega⟩
/-- and of the update. -/
def colU (g : Fin 256) : Fin 768 := ⟨512 + g.val, by omega⟩

section Node

variable (P : Params) (xr : Fin 300 → EReal) (hr cr : Fin 4 → Fin 256 → EReal)

/-- The input's share of every child's forget gate. -/
def wx (g : Fin 256) : EReal := (∑ j : Fin 300, xr j * P.wf g j) + P.bwf g

/-- Child `k`'s share of its own forget gate. -/
def uh (k : Fin 4) (g : Fin 256) : EReal := (∑ q : Fin 256, hr k q * P.uf g q) + P.buf g

/-- Child `k`'s forget gate. -/
def fgate (k : Fin 4) (g : Fin 256) : EReal := Ideal.logistic (wx P xr g + uh P hr k g)

/-- The gated sum of the children's memories. -/
def ctild (g : Fin 256) : EReal := ∑ k : Fin 4, fgate P xr hr k g * cr k g

/-- The sum of the children's hidden rows. -/
def htild (q : Fin 256) : EReal := ∑ k : Fin 4, hr k q

/-- The fused pre-activation of the input gate, the output gate and the update. -/
def iou (col : Fin 768) : EReal :=
  ((∑ j : Fin 300, xr j * P.wiou col j) + P.biou col) + ((∑ q : Fin 256, htild hr q * P.uiou col q) + P.buiou col)

/-- The node's memory. -/
def cellC (g : Fin 256) : EReal :=
  Ideal.logistic (iou P xr hr (colI g)) * Ideal.tanh (iou P xr hr (colU g)) + ctild P xr hr cr g

/-- The node's hidden state. -/
def cellH (g : Fin 256) : EReal := Ideal.logistic (iou P xr hr (colO g)) * Ideal.tanh (cellC P xr hr cr g)

/-- The children's hidden rows added one after the other are their sum. -/
theorem htild_chain (q : Fin 256) : hr 0 q + hr 1 q + hr 2 q + hr 3 q = htild hr q := by
  unfold htild; rw [Fin.sum_univ_four]

/-- The gated memories accumulated from zero, one child after the other, are the gated sum. -/
theorem ctild_chain (g : Fin 256) :
    0 + fgate P xr hr 0 g * cr 0 g + fgate P xr hr 1 g * cr 1 g + fgate P xr hr 2 g * cr 2 g + fgate P xr hr 3 g * cr 3 g
      = ctild P xr hr cr g := by
  unfold ctild; rw [zero_add, Fin.sum_univ_four]

/-- The fused pre-activation with its four summands added one after the other. -/
theorem iou_chain (col : Fin 768) :
    (∑ j : Fin 300, xr j * P.wiou col j) + P.biou col + (∑ q : Fin 256, htild hr q * P.uiou col q) + P.buiou col
      = iou P xr hr col := add_assoc _ _ _

end Node

/-- The cells of `N` nodes: member 0 of the result holds the hidden states, member 1 the memories; node `n` reads row
    `n` of the inputs and members `(n, k)` of the children's states. -/
def cellsOut {N : Nat} (P : Params) (x : (⟨2, ![N, 300]⟩ : Shape).Idx → EReal)
    (h c : (⟨3, ![N, 4, 256]⟩ : Shape).Idx → EReal) : (⟨3, ![2, N, 256]⟩ : Shape).Idx → EReal := fun i =>
  if (i 0).val = 0 then
    cellH P (fun j => x (ix2 (i 1) j)) (fun k q => h (ix3 (i 1) k q)) (fun k q => c (ix3 (i 1) k q)) (i 2)
  else
    cellC P (fun j => x (ix2 (i 1) j)) (fun k q => h (ix3 (i 1) k q)) (fun k q => c (ix3 (i 1) k q)) (i 2)

theorem cellsOut_zero {N : Nat} (P : Params) (x : (⟨2, ![N, 300]⟩ : Shape).Idx → EReal)
    (h c : (⟨3, ![N, 4, 256]⟩ : Shape).Idx → EReal) (n : Fin N) (g : Fin 256) :
    cellsOut P x h c (ix3 (0 : Fin 2) n g)
      = cellH P (fun j => x (ix2 n j)) (fun k q => h (ix3 n k q)) (fun k q => c (ix3 n k q)) g := rfl

theorem cellsOut_one {N : Nat} (P : Params) (x : (⟨2, ![N, 300]⟩ : Shape).Idx → EReal)
    (h c : (⟨3, ![N, 4, 256]⟩ : Shape).Idx → EReal) (n : Fin N) (g : Fin 256) :
    cellsOut P x h c (ix3 (1 : Fin 2) n g)
      = cellC P (fun j => x (ix2 n j)) (fun k q => h (ix3 n k q)) (fun k q => c (ix3 n k q)) g := rfl

/-- A run of `M` consecutive nodes from node `off` on, cut out of the inputs, has the cells of those nodes: a cell
    reads only its own node's rows. -/
theorem cellsOut_rows {N M : Nat} (P : Params) (X : (⟨2, ![N, 300]⟩ : Shape).Idx → EReal)
    (H C : (⟨3, ![N, 4, 256]⟩ : Shape).Idx → EReal) (x : (⟨2, ![M, 300]⟩ : Shape).Idx → EReal)
    (h c : (⟨3, ![M, 4, 256]⟩ : Shape).Idx → EReal) (off : Nat) (hoff : off + M ≤ N)
    (hx : ∀ (r : Fin M) (j : Fin 300), x (ix2 r j) = X (ix2 ⟨off + r.val, by omega⟩ j))
    (hh : ∀ (r : Fin M) (k : Fin 4) (q : Fin 256), h (ix3 r k q) = H (ix3 ⟨off + r.val, by omega⟩ k q))
    (hc : ∀ (r : Fin M) (k : Fin 4) (q : Fin 256), c (ix3 r k q) = C (ix3 ⟨off + r.val, by omega⟩ k q))
    (s : Fin 2) (r : Fin M) (g : Fin 256) :
    cellsOut P x h c (ix3 s r g) = cellsOut P X H C (ix3 s ⟨off + r.val, by omega⟩ g) := by
  have ex : (fun j => x (ix2 r j)) = fun j => X (ix2 ⟨off + r.val, by omega⟩ j) := funext fun j => hx r j
  have eh : (fun k q => h (ix3 r k q)) = fun k q => H (ix3 ⟨off + r.val, by omega⟩ k q) :=
    funext fun k => funext fun q => hh r k q
  have ec : (fun k q => c (ix3 r k q)) = fun k q => C (ix3 ⟨off + r.val, by omega⟩ k q) :=
    funext fun k => funext fun q => hc r k q
  show (if (s : Nat) = 0 then cellH P (fun j => x (ix2 r j)) (fun k q => h (ix3 r k q)) (fun k q => c (ix3 r k q)) g
      else cellC P (fun j => x (ix2 r j)) (fun k q => h (ix3 r k q)) (fun k q => c (ix3 r k q)) g) = _
  rw [ex, eh, ec]
  rfl

/-- The parameters read off the argument arrays, each in its own layout: a weight matrix `[out, in]`, a bias `[out]`. -/
def argParams (W_iou : (⟨2, ![768, 300]⟩ : Shape).Idx → EReal) (b_iou : (⟨1, ![768]⟩ : Shape).Idx → EReal)
    (U_iou : (⟨2, ![768, 256]⟩ : Shape).Idx → EReal) (b_Uiou : (⟨1, ![768]⟩ : Shape).Idx → EReal)
    (W_f : (⟨2, ![256, 300]⟩ : Shape).Idx → EReal) (b_Wf : (⟨1, ![256]⟩ : Shape).Idx → EReal)
    (U_f : (⟨2, ![256, 256]⟩ : Shape).Idx → EReal) (b_Uf : (⟨1, ![256]⟩ : Shape).Idx → EReal) : Params where
  wf g j := W_f (ix2 g j)
  bwf g := b_Wf (ix1 g)
  uf g q := U_f (ix2 g q)
  buf g := b_Uf (ix1 g)
  wiou col j := W_iou (ix2 col j)
  biou col := b_iou (ix1 col)
  uiou col q := U_iou (ix2 col q)
  buiou col := b_Uiou (ix1 col)

/-- The parameters as a kernel stages them: each weight matrix transposed, `[in, out]`, each bias as one row `[1, out]`. -/
def stagedParams (wfT : (⟨2, ![300, 256]⟩ : Shape).Idx → EReal) (bwf : (⟨2, ![1, 256]⟩ : Shape).Idx → EReal)
    (ufT : (⟨2, ![256, 256]⟩ : Shape).Idx → EReal) (buf : (⟨2, ![1, 256]⟩ : Shape).Idx → EReal)
    (wiouT : (⟨2, ![300, 768]⟩ : Shape).Idx → EReal) (biou : (⟨2, ![1, 768]⟩ : Shape).Idx → EReal)
    (uiouT : (⟨2, ![256, 768]⟩ : Shape).Idx → EReal) (buiou : (⟨2, ![1, 768]⟩ : Shape).Idx → EReal) : Params where
  wf g j := wfT (ix2 j g)
  bwf g := bwf (ix2 (0 : Fin 1) g)
  uf g q := ufT (ix2 q g)
  buf g := buf (ix2 (0 : Fin 1) g)
  wiou col j := wiouT (ix2 j col)
  biou col := biou (ix2 (0 : Fin 1) col)
  uiou col q := uiouT (ix2 q col)
  buiou col := buiou (ix2 (0 : Fin 1) col)

/-- The pattern of the float `1.0` is the number one. -/
theorem ofBits_one_f32 : Ideal.ofBits .f32 0x3F800000#32 = 1 := by
  simp [Ideal.ofBits, Ideal.ieee, -EReal.coe_mul]; norm_num

/-- The logistic function spelled with the host's operations: one over one plus the exponential of the negation. -/
theorem logistic_spelled (x : EReal) :
    Ideal.div (Ideal.ofBits .f32 0x3F800000#32) (Ideal.ofBits .f32 0x3F800000#32 + Ideal.exp (-x)) = Ideal.logistic x := by
  rw [ofBits_one_f32]; rfl

end Cert.TreeCell

end
-- ==== Proof.LibPlainDot.lean ====
/-
  A matrix product read at an entry.

  A product of an \`M × K\` by a \`K × N\` matrix whose dimension numbers contract the left operand's columns with the
  right operand's rows, keep the left rows and the right columns in that order, and have no batch axis. At result
  entry \`(i, j)\` and contraction position \`k\` the left operand is read at \`(i, k)\` and the right at \`(k, j)\`, and the
  one-axis contraction index set is its coordinate range \`Fin K\`; so the sum over the contraction index is the
  textbook \`∑ q, A i q * B q j\`. The same for a stack of \`B\` such products, member by member (one batch axis, the
  first of both operands and of the result). Stated for ANY dimension-number record with those lists, at the
  extended reals, for the accumulating block product into a zero accumulator and for the host's product.
-/
import Idealize.ShloMosaic.PureOps.Ideal
import Idealize.ShloMosaic.PureOps.Ideal.Laws
import Idealize.ShloMosaic.Lib.ValueIdx

noncomputable section

open scoped BigOperators

namespace Cert.LibPlainDot

open Idealize.ShloMosaic Idealize.ShloMosaic.ValueIdx

/-! ## The plain product

The contraction shape lists the sizes of the left operand's contracted axes: here the one size \`K\`. Off the contracted
axis an operand index reads the result index: the left operand's row is the result's row, the right operand's column
the result's column. Each fact is read off the record once its lists are the stated literals. -/

section Plain

variable {M K N : Nat} (d : DotDims (⟨2, ![M, K]⟩ : Shape) (⟨2, ![K, N]⟩ : Shape) (⟨2, ![M, N]⟩ : Shape))
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb

/-- The contraction index set has one axis … -/
theorem contr_rank : d.contr.rank = 1 := by
  obtain ⟨lc, rc, ln, rn, lb, rb, wf⟩ := d
  subst hlc hrc hln hrn hlb hrb
  rfl

/-- … of extent \`K\`, the left operand's number of columns. -/
theorem contr_size (h : 0 < d.contr.rank) : d.contr.size ⟨0, h⟩ = K := by
  obtain ⟨lc, rc, ln, rn, lb, rb, wf⟩ := d
  subst hlc hrc hln hrn hlb hrb
  rfl

/-- The left operand's row is the result's row. -/
theorem lhs_row (i : Fin M) (j : Fin N) (k : d.contr.Idx) : (d.lhsIdx (ix2 i j) k 0).val = i.val := by
  obtain ⟨lc, rc, ln, rn, lb, rb, wf⟩ := d
  subst hlc hrc hln hrn hlb hrb
  rfl

/-- The right operand's column is the result's column. -/
theorem rhs_col (i : Fin M) (j : Fin N) (k : d.contr.Idx) : (d.rhsIdx (ix2 i j) k 1).val = j.val := by
  obtain ⟨lc, rc, ln, rn, lb, rb, wf⟩ := d
  subst hlc hrc hln hrn hlb hrb
  rfl

/-- THE CONTRACTION'S SUM OF A PLAIN PRODUCT at entry \`(i, j)\` is the matrix product's entry: at contraction position
    \`k\` with coordinate \`q\` the left operand is read at \`(i, q)\` and the right at \`(q, j)\`, and the positions
    correspond one to one to the coordinates \`q : Fin K\`, so the sum is re-indexed by them. -/
theorem plain_sum (l : (⟨2, ![M, K]⟩ : Shape).Idx → EReal) (r : (⟨2, ![K, N]⟩ : Shape).Idx → EReal)
    (i : Fin M) (j : Fin N) :
    (∑ k : d.contr.Idx, l (d.lhsIdx (ix2 i j) k) * r (d.rhsIdx (ix2 i j) k))
      = ∑ q : Fin K, l (ix2 i q) * r (ix2 q j) := by
  have h1 := contr_rank d hlc hrc hln hrn hlb hrb
  have hK := contr_size d hlc hrc hln hrn hlb hrb (by omega)
  -- the operand indices at position \`k\`, by coordinates
  have hl : ∀ k : d.contr.Idx, d.lhsIdx (ix2 i j) k = ix2 i (contrEquiv1 d K h1 hK k) := by
    intro k
    funext a
    refine Fin.ext ?_
    match a with
    | ⟨0, _⟩ => exact lhs_row d hlc hrc hln hrn hlb hrb i j k
    | ⟨1, _⟩ => exact d.lhsIdx_val_of_single hlc (ix2 i j) k
  have hr : ∀ k : d.contr.Idx, d.rhsIdx (ix2 i j) k = ix2 (contrEquiv1 d K h1 hK k) j := by
    intro k
    funext a
    refine Fin.ext ?_
    match a with
    | ⟨0, _⟩ => exact d.rhsIdx_val_of_single hrc (ix2 i j) k
    | ⟨1, _⟩ => exact rhs_col d hlc hrc hln hrn hlb hrb i j k
  calc (∑ k : d.contr.Idx, l (d.lhsIdx (ix2 i j) k) * r (d.rhsIdx (ix2 i j) k))
      = ∑ k : d.contr.Idx, (fun q : Fin K => l (ix2 i q) * r (ix2 q j)) (contrEquiv1 d K h1 hK k) :=
        Finset.sum_congr rfl fun k _ => by rw [hl k, hr k]
    _ = ∑ q : Fin K, l (ix2 i q) * r (ix2 q j) :=
        Equiv.sum_comp (contrEquiv1 d K h1 hK) fun q : Fin K => l (ix2 i q) * r (ix2 q j)
    _ = ∑ q : Fin K, l (ix2 i q) * r (ix2 q j) := rfl

/-- A block product into the zero accumulator, read at \`(i, j)\`, is the matrix product's entry. -/
theorem matmul_zero_apply (prec : Option ContractPrecision) (l : FVec Ideal (⟨2, ![M, K]⟩ : Shape) .f32)
    (r : FVec Ideal (⟨2, ![K, N]⟩ : Shape) .f32) (i : Fin M) (j : Fin N) :
    FloatOps.matmul d prec l r (constant (⟨2, ![M, N]⟩ : Shape) .f32 0x00000000#32) (ix2 i j)
      = ∑ q : Fin K, l (ix2 i q) * r (ix2 q j) := by
  rw [Ideal.matmul_constant_zero_apply]
  exact plain_sum d hlc hrc hln hrn hlb hrb l r i j

/-- The same, with the block product spelled by its vector-level name. -/
theorem matmul_zero_apply' (prec : Option ContractPrecision) (l : FVec Ideal (⟨2, ![M, K]⟩ : Shape) .f32)
    (r : FVec Ideal (⟨2, ![K, N]⟩ : Shape) .f32) (i : Fin M) (j : Fin N) :
    matmul d prec l r (constant (⟨2, ![M, N]⟩ : Shape) .f32 0x00000000#32) (ix2 i j)
      = ∑ q : Fin K, l (ix2 i q) * r (ix2 q j) :=
  matmul_zero_apply d hlc hrc hln hrn hlb hrb prec l r i j

/-- The host's product, read at \`(i, j)\`, is the matrix product's entry. -/
theorem hostDot_apply (prec : Option ContractPrecision) (l : FVec Ideal (⟨2, ![M, K]⟩ : Shape) .f32)
    (r : FVec Ideal (⟨2, ![K, N]⟩ : Shape) .f32) (i : Fin M) (j : Fin N) :
    Host.dotGeneral d prec l r (ix2 i j) = ∑ q : Fin K, l (ix2 i q) * r (ix2 q j) := by
  show FloatOps.dotGeneral d prec .single l r (ix2 i j) = _
  rw [Ideal.dotGeneral_apply]
  exact plain_sum d hlc hrc hln hrn hlb hrb l r i j

end Plain

/-! ## The stack of products

One batch axis, the first of both operands and of the result; the left operand's last axis is contracted with the
right operand's middle one. Both operands read the result's batch coordinate; the left operand's row is the result's
row, the right operand's column the result's column. -/

section Batched

variable {B M K N : Nat}
  (d : DotDims (⟨3, ![B, M, K]⟩ : Shape) (⟨3, ![B, K, N]⟩ : Shape) (⟨3, ![B, M, N]⟩ : Shape))
  (hlc : d.lhsContracting = [2]) (hrc : d.rhsContracting = [1]) (hln : d.lhsNonContracting = [1])
  (hrn : d.rhsNonContracting = [2]) (hlb : d.lhsBatch = [0]) (hrb : d.rhsBatch = [0])

include hlc hrc hln hrn hlb hrb

/-- The contraction index set has one axis … -/
theorem contr_rank3 : d.contr.rank = 1 := by
  obtain ⟨lc, rc, ln, rn, lb, rb, wf⟩ := d
  subst hlc hrc hln hrn hlb hrb
  rfl

/-- … of extent \`K\`, the size of the left operand's last axis. -/
theorem contr_size3 (h : 0 < d.contr.rank) : d.contr.size ⟨0, h⟩ = K := by
  obtain ⟨lc, rc, ln, rn, lb, rb, wf⟩ := d
  subst hlc hrc hln hrn hlb hrb
  rfl

/-- The left operand's member is the result's member … -/
theorem lhs_batch3 (b : Fin B) (i : Fin M) (j : Fin N) (k : d.contr.Idx) :
    (d.lhsIdx (ix3 b i j) k 0).val = b.val := by
  obtain ⟨lc, rc, ln, rn, lb, rb, wf⟩ := d
  subst hlc hrc hln hrn hlb hrb
  rfl

/-- … and its row the result's row. -/
theorem lhs_row3 (b : Fin B) (i : Fin M) (j : Fin N) (k : d.contr.Idx) :
    (d.lhsIdx (ix3 b i j) k 1).val = i.val := by
  obtain ⟨lc, rc, ln, rn, lb, rb, wf⟩ := d
  subst hlc hrc hln hrn hlb hrb
  rfl

/-- The right operand's member is the result's member … -/
theorem rhs_batch3 (b : Fin B) (i : Fin M) (j : Fin N) (k : d.contr.Idx) :
    (d.rhsIdx (ix3 b i j) k 0).val = b.val := by
  obtain ⟨lc, rc, ln, rn, lb, rb, wf⟩ := d
  subst hlc hrc hln hrn hlb hrb
  rfl

/-- … and its column the result's column. -/
theorem rhs_col3 (b : Fin B) (i : Fin M) (j : Fin N) (k : d.contr.Idx) :
    (d.rhsIdx (ix3 b i j) k 2).val = j.val := by
  obtain ⟨lc, rc, ln, rn, lb, rb, wf⟩ := d
  subst hlc hrc hln hrn hlb hrb
  rfl

/-- THE HOST'S PRODUCT OF TWO STACKS, member by member, read at \`(b, i, j)\`, is entry \`(i, j)\` of the product of the
    two members \`b\`: at contraction position \`k\` with coordinate \`q\` the left stack is read at \`(b, i, q)\` and the
    right at \`(b, q, j)\`, and the sum is re-indexed by \`q : Fin K\`. -/
theorem batchDot_apply (prec : Option ContractPrecision) (l : FVec Ideal (⟨3, ![B, M, K]⟩ : Shape) .f32)
    (r : FVec Ideal (⟨3, ![B, K, N]⟩ : Shape) .f32) (b : Fin B) (i : Fin M) (j : Fin N) :
    Host.dotGeneral d prec l r (ix3 b i j)
      = ∑ q : Fin K, l (ix3 b i q) * r (ix3 b q j) := by
  have h1 := contr_rank3 d hlc hrc hln hrn hlb hrb
  have hK := contr_size3 d hlc hrc hln hrn hlb hrb (by omega)
  have hl : ∀ k : d.contr.Idx, d.lhsIdx (ix3 b i j) k = ix3 b i (contrEquiv1 d K h1 hK k) := by
    intro k
    funext a
    refine Fin.ext ?_
    match a with
    | ⟨0, _⟩ => exact lhs_batch3 d hlc hrc hln hrn hlb hrb b i j k
    | ⟨1, _⟩ => exact lhs_row3 d hlc hrc hln hrn hlb hrb b i j k
    | ⟨2, _⟩ => exact d.lhsIdx_val_of_single hlc (ix3 b i j) k
  have hr : ∀ k : d.contr.Idx, d.rhsIdx (ix3 b i j) k = ix3 b (contrEquiv1 d K h1 hK k) j := by
    intro k
    funext a
    refine Fin.ext ?_
    match a with
    | ⟨0, _⟩ => exact rhs_batch3 d hlc hrc hln hrn hlb hrb b i j k
    | ⟨1, _⟩ => exact d.rhsIdx_val_of_single hrc (ix3 b i j) k
    | ⟨2, _⟩ => exact rhs_col3 d hlc hrc hln hrn hlb hrb b i j k
  show FloatOps.dotGeneral d prec .single l r (ix3 b i j) = _
  rw [Ideal.dotGeneral_apply]
  calc (∑ k : d.contr.Idx, l (d.lhsIdx (ix3 b i j) k) * r (d.rhsIdx (ix3 b i j) k))
      = ∑ k : d.contr.Idx, (fun q : Fin K => l (ix3 b i q) * r (ix3 b q j)) (contrEquiv1 d K h1 hK k) :=
        Finset.sum_congr rfl fun k _ => by rw [hl k, hr k]
    _ = ∑ q : Fin K, l (ix3 b i q) * r (ix3 b q j) :=
        Equiv.sum_comp (contrEquiv1 d K h1 hK) fun q : Fin K => l (ix3 b i q) * r (ix3 b q j)
    _ = ∑ q : Fin K, l (ix3 b i q) * r (ix3 b q j) := rfl

end Batched

end Cert.LibPlainDot

end
-- ==== Proof.Payload.lean ====
/-
  What the kernel body computes on one block of 512 nodes, read at an index: each value of the body, at a node `r` of
  the block and a feature, is the corresponding quantity of that node's cell (Spec.lean) over the parameters as the
  kernel stages them — every weight matrix transposed, every bias one row. The four children are four slabs of the
  staged `[512, 4, 256]` blocks; a block product into a zero accumulator is the textbook sum; the casts to bf16 are
  the identity on the extended reals; the kernel's logistic is the logistic function.
-/
import proofs.«161287_j22351009808691_1_alg».proof.Proof.Gen.KernelIdeal.Skeleton
import proofs.«161287_j22351009808691_1_alg».proof.Proof.Spec
import proofs.«161287_j22351009808691_1_alg».proof.Proof.LibPlainDot
import Idealize.ShloMosaic.Lib.Pipeline.Value
import Idealize.ShloMosaic.Lib.ValueLayout

noncomputable section

open scoped BigOperators

namespace Cert.TreeCell.Blk

open Cert.KernelIdeal Cert.KernelIdeal.Gen Cert.TreeCell Idealize.ShloMosaic Idealize.ShloMosaic.ValueIdx

/-! ## Layout fragments -/

/-- An `[a, 1, b]` array cast to `[a, b]` reads, at `(i, j)`, the operand at `(i, 0, j)`. -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- A block product of an `[M, K]` by a `[K, N]` matrix of any two float formats into the zero accumulator, at
    `(i, j)`, is `∑ q, A (i, q) · B (q, j)`. -/
theorem mm {M K N : Nat} {φ₁ φ₂ : FTy} (d : DotDims (⟨2, ![M, K]⟩ : Shape) (⟨2, ![K, N]⟩ : Shape) (⟨2, ![M, N]⟩ : Shape))
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal (⟨2, ![M, K]⟩ : Shape) φ₁) (r : FVec Ideal (⟨2, ![K, N]⟩ : Shape) φ₂)
    (i : Fin M) (j : Fin N) :
    matmul d prec l r (constant (⟨2, ![M, N]⟩ : Shape) .f32 0x00000000#32) (ix2 i j)
      = ∑ q : Fin K, l (ix2 i q) * r (ix2 q j) := by
  show FloatOps.matmul d prec l r (constant (⟨2, ![M, N]⟩ : Shape) .f32 0x00000000#32) (ix2 i j) = _
  rw [Ideal.matmul_constant_zero_apply]
  exact Cert.LibPlainDot.plain_sum d hlc hrc hln hrn hlb hrb l r i j

/-- One child's slab times the recurrent forget weights, plus the bias row: at `(r, g)`. -/
theorem uhFrag (v : FVec Ideal S512x1x256 .f32) (w : FVec Ideal S256x256 .bf16) (b : FVec Ideal S1x256 .f32)
    (h1 : S512x1x256.ShapeCasts S512x256) (hlt : FTy.bits .bf16 < FTy.bits .f32) (h2 : S256x256.ShapeCasts S256x256)
    (h3 : S1x256.ShapeCasts S1x256) (h4 : S1x256.Broadcasts S512x256) (r : Fin 512) (g : Fin 256) :
    addf (matmul dot_S512x256_S256x256_S512x256_1_0_0_1_n_n none (truncf .bf16 (shapeCast S512x256 v h1) hlt)
        (shapeCast S256x256 w h2) (constant S512x256 .f32 0x00000000#32))
      (broadcastTo S512x256 (shapeCast S1x256 b h3) h4) (ix2 r g)
      = (∑ q : Fin 256, v (ix3 r (0 : Fin 1) q) * w (ix2 q g)) + b (ix2 (0 : Fin 1) g) := by
  show matmul dot_S512x256_S256x256_S512x256_1_0_0_1_n_n none (truncf .bf16 (shapeCast S512x256 v h1) hlt)
        (shapeCast S256x256 w h2) (constant S512x256 .f32 0x00000000#32) (ix2 r g)
      + broadcastTo S512x256 (shapeCast S1x256 b h3) h4 (ix2 r g) = _
  rw [mm _ rfl rfl rfl rfl rfl rfl, broadcastTo_1b_ab_apply, shapeCast_self, shapeCast_self]
  refine congrArg (· + _) (Finset.sum_congr rfl fun q _ => ?_)
  show shapeCast S512x256 v h1 (ix2 r q) * _ = _
  rw [shapeCast_a1b_ab_apply]

/-! ## The body's values at an index -/

/-- The printed operations of one child's share of its forget gate: its slab cast to a matrix and to bf16, times the
    staged recurrent weights, plus the staged bias row broadcast over the block. -/
def uhOps (v : FVec Ideal S512x1x256 .f32) (w : FVec Ideal S256x256 .bf16) (b : FVec Ideal S1x256 .f32) :
    FVec Ideal S512x256 .f32 :=
  addf (matmul dot_S512x256_S256x256_S512x256_1_0_0_1_n_n none
      (truncf .bf16 (shapeCast S512x256 v shapeCasts_S512x1x256_S512x256) bitsLt_bf16_f32)
      (shapeCast S256x256 w shapeCasts_S256x256_S256x256) (constant S512x256 .f32 0x00000000#32))
    (broadcastTo S512x256 (shapeCast S1x256 b shapeCasts_S1x256_S1x256) broadcasts_S1x256_S512x256)

theorem uhOps_apply (v : FVec Ideal S512x1x256 .f32) (w : FVec Ideal S256x256 .bf16) (b : FVec Ideal S1x256 .f32)
    (r : Fin 512) (g : Fin 256) :
    uhOps v w b (ix2 r g) = (∑ q : Fin 256, v (ix3 r (0 : Fin 1) q) * w (ix2 q g)) + b (ix2 (0 : Fin 1) g) :=
  uhFrag v w b _ _ _ _ _ r g

/-- The cast of the input block to bf16 changes no value. -/
theorem pay4_apply (v0 : FVec Ideal S512x300 .f32) (i : S512x300.Idx) : k0_pay4 (F := Ideal) v0 i = v0 i := rfl

/-- `x @ W_f.T + b_Wf` on the block. -/
theorem pay5_apply (v0 : FVec Ideal S512x300 .f32) (v2 : FVec Ideal S300x256 .bf16) (v5 : FVec Ideal S1x256 .f32)
    (r : Fin 512) (g : Fin 256) :
    k0_pay5 (F := Ideal) v0 v2 v5 (ix2 r g)
      = (∑ j : Fin 300, v0 (ix2 r j) * v2 (ix2 j g)) + v5 (ix2 (0 : Fin 1) g) := by
  show matmul dot_S512x300_S300x256_S512x256_1_0_0_1_n_n none (truncf .bf16 v0 _) (shapeCast S300x256 v2 _)
        (constant S512x256 .f32 0x00000000#32) (ix2 r g)
      + broadcastTo S512x256 (shapeCast S1x256 v5 _) _ (ix2 r g) = _
  rw [mm _ rfl rfl rfl rfl rfl rfl, broadcastTo_1b_ab_apply, shapeCast_self, shapeCast_self] <;> rfl

/-- The four children's hidden slabs added one after the other. -/
theorem pay6_apply (v9 v11 v13 v15 : FVec Ideal S512x1x256 .f32) (r : Fin 512) (q : Fin 256) :
    k0_pay6 (F := Ideal) v9 v11 v13 v15 (ix2 r q)
      = v9 (ix3 r (0 : Fin 1) q) + v11 (ix3 r (0 : Fin 1) q) + v13 (ix3 r (0 : Fin 1) q) + v15 (ix3 r (0 : Fin 1) q) := by
  show shapeCast S512x256 v9 _ (ix2 r q) + shapeCast S512x256 v11 _ (ix2 r q) + shapeCast S512x256 v13 _ (ix2 r q)
      + shapeCast S512x256 v15 _ (ix2 r q) = _
  simp only [shapeCast_a1b_ab_apply]

/-- The accumulator of the gated sum starts from the float zero. -/
theorem pay7_apply (i : S512x256.Idx) : k0_pay7 (F := Ideal) i = 0 := by
  show Ideal.ofBits .f32 0x00000000#32 = 0
  exact Ideal.ofBits_zero_f32

/-- Child 0's share of its forget gate. -/
theorem pay8_apply (v21 : FVec Ideal S512x1x256 .f32) (v24 : FVec Ideal S256x256 .bf16) (v27 : FVec Ideal S1x256 .f32)
    (r : Fin 512) (g : Fin 256) :
    k0_pay8 (F := Ideal) v21 v24 v27 (ix2 r g)
      = (∑ q : Fin 256, v21 (ix3 r (0 : Fin 1) q) * v24 (ix2 q g)) + v27 (ix2 (0 : Fin 1) g) :=
  uhOps_apply v21 v24 v27 r g

/-- The gated sum after children 0 and 1. -/
theorem pay9_apply (v8 v20 v30 : FVec Ideal S512x256 .f32) (v33 v37 : FVec Ideal S512x1x256 .f32)
    (v40 : FVec Ideal S256x256 .bf16) (v43 : FVec Ideal S1x256 .f32) (v49 : FVec Ideal S512x1x256 .f32)
    (r : Fin 512) (g : Fin 256) :
    k0_pay9 (F := Ideal) v8 v20 v30 v33 v37 v40 v43 v49 (ix2 r g)
      = v20 (ix2 r g) + Ideal.logistic (v8 (ix2 r g) + v30 (ix2 r g)) * v33 (ix3 r (0 : Fin 1) g)
        + Ideal.logistic (v8 (ix2 r g)
            + ((∑ q : Fin 256, v37 (ix3 r (0 : Fin 1) q) * v40 (ix2 q g)) + v43 (ix2 (0 : Fin 1) g)))
          * v49 (ix3 r (0 : Fin 1) g) := by
  show v20 (ix2 r g) + Ideal.logistic (v8 (ix2 r g) + v30 (ix2 r g)) * shapeCast S512x256 v33 _ (ix2 r g)
      + Ideal.logistic (v8 (ix2 r g) + uhOps v37 v40 v43 (ix2 r g)) * shapeCast S512x256 v49 _ (ix2 r g) = _
  rw [uhOps_apply]
  simp only [shapeCast_a1b_ab_apply]

/-- Child 2's forget gate. -/
theorem pay10_apply (v8 : FVec Ideal S512x256 .f32) (v53 : FVec Ideal S512x1x256 .f32) (v56 : FVec Ideal S256x256 .bf16)
    (v59 : FVec Ideal S1x256 .f32) (r : Fin 512) (g : Fin 256) :
    k0_pay10 (F := Ideal) v8 v53 v56 v59 (ix2 r g)
      = Ideal.logistic (v8 (ix2 r g)
          + ((∑ q : Fin 256, v53 (ix3 r (0 : Fin 1) q) * v56 (ix2 q g)) + v59 (ix2 (0 : Fin 1) g))) := by
  show Ideal.logistic (v8 (ix2 r g) + uhOps v53 v56 v59 (ix2 r g)) = _
  rw [uhOps_apply]

/-- The gated sum after children 2 and 3. -/
theorem pay11_apply (v8 v52 v64 : FVec Ideal S512x256 .f32) (v65 v69 : FVec Ideal S512x1x256 .f32)
    (v72 : FVec Ideal S256x256 .bf16) (v75 : FVec Ideal S1x256 .f32) (v81 : FVec Ideal S512x1x256 .f32)
    (r : Fin 512) (g : Fin 256) :
    k0_pay11 (F := Ideal) v8 v52 v64 v65 v69 v72 v75 v81 (ix2 r g)
      = v52 (ix2 r g) + v64 (ix2 r g) * v65 (ix3 r (0 : Fin 1) g)
        + Ideal.logistic (v8 (ix2 r g)
            + ((∑ q : Fin 256, v69 (ix3 r (0 : Fin 1) q) * v72 (ix2 q g)) + v75 (ix2 (0 : Fin 1) g)))
          * v81 (ix3 r (0 : Fin 1) g) := by
  show v52 (ix2 r g) + v64 (ix2 r g) * shapeCast S512x256 v65 _ (ix2 r g)
      + Ideal.logistic (v8 (ix2 r g) + uhOps v69 v72 v75 (ix2 r g)) * shapeCast S512x256 v81 _ (ix2 r g) = _
  rw [uhOps_apply]
  simp only [shapeCast_a1b_ab_apply]

/-- The fused pre-activation, its four summands added one after the other. -/
theorem pay12_apply (v1 : FVec Ideal S512x300 .bf16) (v19 : FVec Ideal S512x256 .f32) (v85 : FVec Ideal S300x768 .bf16)
    (v88 : FVec Ideal S1x768 .f32) (v93 : FVec Ideal S256x768 .bf16) (v97 : FVec Ideal S1x768 .f32)
    (r : Fin 512) (col : Fin 768) :
    k0_pay12 (F := Ideal) v1 v19 v85 v88 v93 v97 (ix2 r col)
      = (∑ j : Fin 300, v1 (ix2 r j) * v85 (ix2 j col)) + v88 (ix2 (0 : Fin 1) col)
        + (∑ q : Fin 256, v19 (ix2 r q) * v93 (ix2 q col)) + v97 (ix2 (0 : Fin 1) col) := by
  show matmul dot_S512x300_S300x768_S512x768_1_0_0_1_n_n none v1 (shapeCast S300x768 v85 _)
        (constant S512x768 .f32 0x00000000#32) (ix2 r col)
      + broadcastTo S512x768 (shapeCast S1x768 v88 _) _ (ix2 r col)
      + matmul dot_S512x256_S256x768_S512x768_1_0_0_1_n_n none (truncf .bf16 v19 _) (shapeCast S256x768 v93 _)
        (constant S512x768 .f32 0x00000000#32) (ix2 r col)
      + broadcastTo S512x768 (shapeCast S1x768 v97 _) _ (ix2 r col) = _
  rw [mm _ rfl rfl rfl rfl rfl rfl, mm _ rfl rfl rfl rfl rfl rfl, broadcastTo_1b_ab_apply, broadcastTo_1b_ab_apply]
  simp only [shapeCast_self]
  rfl

/-- The input gate: the logistic of the first 256 columns of the fused pre-activation. -/
theorem pay13_apply (v1 : FVec Ideal S512x300 .bf16) (v19 : FVec Ideal S512x256 .f32) (v85 : FVec Ideal S300x768 .bf16)
    (v88 : FVec Ideal S1x768 .f32) (v93 : FVec Ideal S256x768 .bf16) (v97 : FVec Ideal S1x768 .f32)
    (r : Fin 512) (g : Fin 256) :
    k0_pay13 (F := Ideal) v1 v19 v85 v88 v93 v97 (ix2 r g)
      = Ideal.logistic (k0_pay12 (F := Ideal) v1 v19 v85 v88 v93 v97 (ix2 r (colI g))) := by
  show Ideal.logistic (extractStridedSlice S512x256 ![0, 0] (k0_pay12 (F := Ideal) v1 v19 v85 v88 v93 v97) _ (ix2 r g)) = _
  rw [slice2_axis1_apply 0 _ _ r g (colI g) (Nat.zero_add _).symm]

/-- The output gate: the logistic of the middle 256 columns. -/
theorem pay14_apply (v1 : FVec Ideal S512x300 .bf16) (v19 : FVec Ideal S512x256 .f32) (v85 : FVec Ideal S300x768 .bf16)
    (v88 : FVec Ideal S1x768 .f32) (v93 : FVec Ideal S256x768 .bf16) (v97 : FVec Ideal S1x768 .f32)
    (r : Fin 512) (g : Fin 256) :
    k0_pay14 (F := Ideal) v1 v19 v85 v88 v93 v97 (ix2 r g)
      = Ideal.logistic (k0_pay12 (F := Ideal) v1 v19 v85 v88 v93 v97 (ix2 r (colO g))) := by
  show Ideal.logistic (extractStridedSlice S512x256 ![0, 256] (k0_pay12 (F := Ideal) v1 v19 v85 v88 v93 v97) _ (ix2 r g)) = _
  rw [slice2_axis1_apply 256 _ _ r g (colO g) rfl]

/-- The memory: input gate times the tanh of the last 256 columns, plus the gated sum. -/
theorem pay1_apply (v84 : FVec Ideal S512x256 .f32) (v100 : FVec Ideal S512x768 .f32) (v102 : FVec Ideal S512x256 .f32)
    (r : Fin 512) (g : Fin 256) :
    k0_pay1 (F := Ideal) v84 v100 v102 (ix2 r g)
      = v102 (ix2 r g) * Ideal.tanh (v100 (ix2 r (colU g))) + v84 (ix2 r g) := by
  show v102 (ix2 r g) * Ideal.tanh (extractStridedSlice S512x256 ![0, 512] v100 _ (ix2 r g)) + v84 (ix2 r g) = _
  rw [slice2_axis1_apply 512 _ _ r g (colU g) rfl]

/-- The stored hidden state: output gate times the tanh of the memory, as member 0 of a one-member stack. -/
theorem pay2_apply (v84 : FVec Ideal S512x256 .f32) (v100 : FVec Ideal S512x768 .f32) (v102 v104 : FVec Ideal S512x256 .f32)
    (u : Fin 1) (r : Fin 512) (g : Fin 256) :
    k0_pay2 (F := Ideal) v84 v100 v102 v104 (ix3 u r g)
      = v104 (ix2 r g) * Ideal.tanh (k0_pay1 (F := Ideal) v84 v100 v102 (ix2 r g)) := by
  show shapeCast S1x512x256 (mulf v104 (tanh (k0_pay1 (F := Ideal) v84 v100 v102))) _ (ix3 u r g) = _
  rw [shapeCast_ab_1ab_apply] <;> rfl

/-- The stored memory, as member 0 of a one-member stack. -/
theorem pay3_apply (v84 : FVec Ideal S512x256 .f32) (v100 : FVec Ideal S512x768 .f32) (v102 : FVec Ideal S512x256 .f32)
    (u : Fin 1) (r : Fin 512) (g : Fin 256) :
    k0_pay3 (F := Ideal) v84 v100 v102 (ix3 u r g) = k0_pay1 (F := Ideal) v84 v100 v102 (ix2 r g) := by
  show shapeCast S1x512x256 (k0_pay1 (F := Ideal) v84 v100 v102) _ (ix3 u r g) = _
  rw [shapeCast_ab_1ab_apply]

/-! ## The body's values are the cell's -/

/-- Four slabs `[512, 1, 256]`, one per child, read as node `r`'s four rows. -/
def slabRows (s0 s1 s2 s3 : FVec Ideal S512x1x256 .f32) (r : Fin 512) : Fin 4 → Fin 256 → EReal :=
  fun k q => (![s0, s1, s2, s3] k) (ix3 r (0 : Fin 1) q)

section Cells

variable (x0 : FVec Ideal S512x300 .f32) (x3 : FVec Ideal S300x256 .bf16) (x4 : FVec Ideal S1x256 .f32)
  (x5 : FVec Ideal S256x256 .bf16) (x6 : FVec Ideal S1x256 .f32) (x7 : FVec Ideal S300x768 .bf16)
  (x8 : FVec Ideal S1x768 .f32) (x9 : FVec Ideal S256x768 .bf16) (x10 : FVec Ideal S1x768 .f32)
  (h0 h1 h2 h3 c0 c1 c2 c3 : FVec Ideal S512x1x256 .f32)

/-- The parameters as the body's staged blocks hold them. -/
abbrev P : Params := stagedParams x3 x4 x5 x6 x7 x8 x9 x10

/-- The gated sum of the children's memories, as the body accumulates it. -/
def ctildV : FVec Ideal S512x256 .f32 :=
  k0_pay11 (F := Ideal) (k0_pay5 (F := Ideal) x0 x3 x4)
    (k0_pay9 (F := Ideal) (k0_pay5 (F := Ideal) x0 x3 x4) (k0_pay7 (F := Ideal)) (k0_pay8 (F := Ideal) h0 x5 x6) c0 h1 x5 x6 c1)
    (k0_pay10 (F := Ideal) (k0_pay5 (F := Ideal) x0 x3 x4) h2 x5 x6) c2 h3 x5 x6 c3

theorem ctild_apply (r : Fin 512) (g : Fin 256) :
    k0_pay11 (F := Ideal) (k0_pay5 (F := Ideal) x0 x3 x4)
        (k0_pay9 (F := Ideal) (k0_pay5 (F := Ideal) x0 x3 x4) (k0_pay7 (F := Ideal)) (k0_pay8 (F := Ideal) h0 x5 x6) c0 h1 x5 x6 c1)
        (k0_pay10 (F := Ideal) (k0_pay5 (F := Ideal) x0 x3 x4) h2 x5 x6) c2 h3 x5 x6 c3 (ix2 r g)
      = ctild (P x3 x4 x5 x6 x7 x8 x9 x10) (fun j => x0 (ix2 r j)) (slabRows h0 h1 h2 h3 r) (slabRows c0 c1 c2 c3 r) g := by
  rw [pay11_apply, pay9_apply, pay10_apply, pay8_apply, pay7_apply, pay5_apply]
  exact ctild_chain (P x3 x4 x5 x6 x7 x8 x9 x10) (fun j => x0 (ix2 r j)) (slabRows h0 h1 h2 h3 r) (slabRows c0 c1 c2 c3 r) g

theorem iou_apply (r : Fin 512) (col : Fin 768) :
    k0_pay12 (F := Ideal) (k0_pay4 (F := Ideal) x0) (k0_pay6 (F := Ideal) h0 h1 h2 h3) x7 x8 x9 x10 (ix2 r col)
      = iou (P x3 x4 x5 x6 x7 x8 x9 x10) (fun j => x0 (ix2 r j)) (slabRows h0 h1 h2 h3 r) col := by
  rw [pay12_apply]
  have e : ∀ q : Fin 256, k0_pay6 (F := Ideal) h0 h1 h2 h3 (ix2 r q) = htild (slabRows h0 h1 h2 h3 r) q := fun q =>
    (pay6_apply h0 h1 h2 h3 r q).trans (htild_chain (slabRows h0 h1 h2 h3 r) q)
  simp only [e]
  exact iou_chain (P x3 x4 x5 x6 x7 x8 x9 x10) (fun j => x0 (ix2 r j)) (slabRows h0 h1 h2 h3 r) col

/-- THE MEMORY the body stores, at node `r` of the block and feature `g`, is that node's cell memory. -/
theorem memory_apply (u : Fin 1) (r : Fin 512) (g : Fin 256) :
    k0_pay3 (F := Ideal) (ctildV x0 x3 x4 x5 x6 h0 h1 h2 h3 c0 c1 c2 c3)
        (k0_pay12 (F := Ideal) (k0_pay4 (F := Ideal) x0) (k0_pay6 (F := Ideal) h0 h1 h2 h3) x7 x8 x9 x10)
        (k0_pay13 (F := Ideal) (k0_pay4 (F := Ideal) x0) (k0_pay6 (F := Ideal) h0 h1 h2 h3) x7 x8 x9 x10) (ix3 u r g)
      = cellC (P x3 x4 x5 x6 x7 x8 x9 x10) (fun j => x0 (ix2 r j)) (slabRows h0 h1 h2 h3 r) (slabRows c0 c1 c2 c3 r) g := by
  unfold ctildV
  rw [pay3_apply, pay1_apply, pay13_apply, ctild_apply x0 x3 x4 x5 x6 x7 x8 x9 x10]
  simp only [iou_apply x0 x3 x4 x5 x6 x7 x8 x9 x10]
  rfl

/-- THE HIDDEN STATE the body stores, at node `r` of the block and feature `g`, is that node's cell hidden state. -/
theorem hidden_apply (u : Fin 1) (r : Fin 512) (g : Fin 256) :
    k0_pay2 (F := Ideal) (ctildV x0 x3 x4 x5 x6 h0 h1 h2 h3 c0 c1 c2 c3)
        (k0_pay12 (F := Ideal) (k0_pay4 (F := Ideal) x0) (k0_pay6 (F := Ideal) h0 h1 h2 h3) x7 x8 x9 x10)
        (k0_pay13 (F := Ideal) (k0_pay4 (F := Ideal) x0) (k0_pay6 (F := Ideal) h0 h1 h2 h3) x7 x8 x9 x10)
        (k0_pay14 (F := Ideal) (k0_pay4 (F := Ideal) x0) (k0_pay6 (F := Ideal) h0 h1 h2 h3) x7 x8 x9 x10) (ix3 u r g)
      = cellH (P x3 x4 x5 x6 x7 x8 x9 x10) (fun j => x0 (ix2 r j)) (slabRows h0 h1 h2 h3 r) (slabRows c0 c1 c2 c3 r) g := by
  unfold ctildV
  rw [pay2_apply, pay14_apply, pay1_apply, pay13_apply, ctild_apply x0 x3 x4 x5 x6 x7 x8 x9 x10]
  simp only [iou_apply x0 x3 x4 x5 x6 x7 x8 x9 x10]
  rfl

end Cells

end Cert.TreeCell.Blk

end
-- ==== Proof.BlockCells.lean ====
/-
  One block of the kernel's result is the cells of that block's 512 nodes: the body stores the hidden states as member 0
  and the memories as member 1 of its `[2, 512, 256]` output block, each computed from the staged blocks (Payload.lean),
  and the four children of a node are the four slabs of the staged `[512, 4, 256]` blocks.
-/
import proofs.«161287_j22351009808691_1_alg».proof.Proof.Gen.KernelIdeal.Frame
import proofs.«161287_j22351009808691_1_alg».proof.Proof.Payload

noncomputable section

open scoped BigOperators

namespace Cert.TreeCell.Blk

open Cert.KernelIdeal Cert.KernelIdeal.Gen Cert.TreeCell Idealize.ShloMosaic Idealize.ShloMosaic.ValueIdx

theorem hz2 : (![0, 0] : Fin 2 → Nat) = fun _ => 0 := funext fun a => by fin_cases a <;> rfl

/-- Child `k`'s slab of a staged `[512, 4, 256]` block, at `(r, 0, q)`, is the block at `(r, k, q)`. -/
theorem ld_slab (X : Vec Ideal S512x4x256 .f32) (k : Fin 4)
    (inb : ∀ a, (![0, k.val, 0] : Fin 3 → Nat) a + S512x1x256.size a ≤ S512x4x256.size a)
    (r : Fin 512) (u : Fin 1) (q : Fin 256) :
    View.ld X (Rect.unit (s := S512x4x256) ![0, k.val, 0] S512x1x256.size inb) (ix3 r u q) = X (ix3 r k q) := by
  show X _ = X _
  refine congrArg X (funext fun a => Fin.ext ?_)
  have hu : u.val = 0 := by omega
  match a with
  | ⟨0, _⟩ => show 0 + 1 * r.val = r.val; omega
  | ⟨1, _⟩ => show k.val + 1 * u.val = k.val; omega
  | ⟨2, _⟩ => show 0 + 1 * q.val = q.val; omega

/-- The four slabs of a staged block are the block's four children, node by node. -/
theorem slabs_eq (X : Vec Ideal S512x4x256 .f32) (r : Fin 512) :
    slabRows (View.ld X r0_3) (View.ld X r0_4) (View.ld X r0_5) (View.ld X r0_6) r = fun k q => X (ix3 r k q) := by
  funext k q
  have hk : k = 0 ∨ k = 1 ∨ k = 2 ∨ k = 3 := by omega
  rcases hk with rfl | rfl | rfl | rfl
  · exact ld_slab X 0 _ r 0 q
  · exact ld_slab X 1 _ r 0 q
  · exact ld_slab X 2 _ r 0 q
  · exact ld_slab X 3 _ r 0 q

/-- WHAT THE BODY LEAVES in its output block: the cells of the block's 512 nodes, over the staged parameters. -/
theorem out_blk (x0 : Vec Ideal S512x300 .f32) (x1 x2 : Vec Ideal S512x4x256 .f32) (x3 : Vec Ideal S300x256 .bf16)
    (x4 : Vec Ideal S1x256 .f32) (x5 : Vec Ideal S256x256 .bf16) (x6 : Vec Ideal S1x256 .f32)
    (x7 : Vec Ideal S300x768 .bf16) (x8 : Vec Ideal S1x768 .f32) (x9 : Vec Ideal S256x768 .bf16)
    (x10 : Vec Ideal S1x768 .f32) :
    out0_11 (F := Ideal) x0 x1 x2 x3 x4 x5 x6 x7 x8 x9 x10
      = cellsOut (stagedParams x3 x4 x5 x6 x7 x8 x9 x10) x0 x1 x2 := by
  funext y
  unfold out0_11
  simp only [View.ld_unit_zero (S := S512x300) hz2, View.ld_unit_zero (S := S300x256) hz2,
    View.ld_unit_zero (S := S1x256) hz2, View.ld_unit_zero (S := S256x256) hz2, View.ld_unit_zero (S := S300x768) hz2,
    View.ld_unit_zero (S := S1x768) hz2, View.ld_unit_zero (S := S256x768) hz2]
  refine View.canon_apply_of_pieces (Val := Elt Ideal) (S := S2x512x256) (e := .f32)
    (cellsOut (stagedParams x3 x4 x5 x6 x7 x8 x9 x10) x0 x1 x2) _ ?_ y (cover0_11 _ _ y)
  intro p hp x
  simp only [List.mem_cons, List.not_mem_nil, or_false] at hp
  rcases hp with rfl | rfl
  · obtain ⟨u, r, g, rfl⟩ : ∃ (u : Fin 1) (r : Fin 512) (g : Fin 256), x = ix3 u r g := ⟨x 0, x 1, x 2, eq_ix3 x⟩
    have he : r0_12.emb (ix3 u r g) = ix3 (1 : Fin 2) r g := funext fun a => Fin.ext (by
      have hu : u.val = 0 := by omega
      match a with
      | ⟨0, _⟩ => show 1 + 1 * u.val = 1; omega
      | ⟨1, _⟩ => show 0 + 1 * r.val = r.val; omega
      | ⟨2, _⟩ => show 0 + 1 * g.val = g.val; omega)
    rw [he, cellsOut_one]
    refine (memory_apply x0 x3 x4 x5 x6 x7 x8 x9 x10 (View.ld x1 r0_3) (View.ld x1 r0_4) (View.ld x1 r0_5)
      (View.ld x1 r0_6) (View.ld x2 r0_3) (View.ld x2 r0_4) (View.ld x2 r0_5) (View.ld x2 r0_6) u r g).trans ?_
    rw [slabs_eq x1 r, slabs_eq x2 r]
  · obtain ⟨u, r, g, rfl⟩ : ∃ (u : Fin 1) (r : Fin 512) (g : Fin 256), x = ix3 u r g := ⟨x 0, x 1, x 2, eq_ix3 x⟩
    have he : r0_11.emb (ix3 u r g) = ix3 (0 : Fin 2) r g := funext fun a => Fin.ext (by
      have hu : u.val = 0 := by omega
      match a with
      | ⟨0, _⟩ => show 0 + 1 * u.val = 0; omega
      | ⟨1, _⟩ => show 0 + 1 * r.val = r.val; omega
      | ⟨2, _⟩ => show 0 + 1 * g.val = g.val; omega)
    rw [he, cellsOut_zero]
    refine (hidden_apply x0 x3 x4 x5 x6 x7 x8 x9 x10 (View.ld x1 r0_3) (View.ld x1 r0_4) (View.ld x1 r0_5)
      (View.ld x1 r0_6) (View.ld x2 r0_3) (View.ld x2 r0_4) (View.ld x2 r0_5) (View.ld x2 r0_6) u r g).trans ?_
    rw [slabs_eq x1 r, slabs_eq x2 r]

end Cert.TreeCell.Blk

end
-- ==== Proof.ArrayValue.lean ====
/-
  The kernel's result array is the cells of all 65536 nodes, as one function of the argument arrays.

  Grid point `t` stages rows `512 t … 512 t + 511` of the inputs and of the children's states and the whole of every
  parameter array, and writes back the block `(·, 512 t …, ·)` of the result. The parameters the region finds were
  prepared by the host operations before it: each weight matrix transposed (and cast to bf16, which changes no value
  over the extended reals), each bias reshaped to one row. So what point `t` writes back is block `t` of the cells of
  all nodes, and the 128 blocks tile the result.
-/
import proofs.«161287_j22351009808691_1_alg».proof.Proof.Gen.KernelIdeal.Value
import proofs.«161287_j22351009808691_1_alg».proof.Proof.BlockCells
import Idealize.ShloMosaic.Lib.StableHlo.Run
import Idealize.ShloMosaic.Lib.ValueLayout

set_option maxRecDepth 16384

noncomputable section

open scoped BigOperators

namespace Cert.TreeCell.Arr

open Cert.KernelIdeal Cert.KernelIdeal.Gen Cert.TreeCell Cert.TreeCell.Blk
open Idealize.ShloMosaic Idealize.ShloMosaic.TcCoe Idealize.ShloMosaic.ValueIdx Idealize.SL.Sem
open Idealize.ShloMosaic.StableHlo
open Idealize.ShloMosaic.Pipeline (Dat)

variable (m : (ℓ : Loc nD τ sig) → Buf (Elt Ideal) ℓ) (ρ : Dev nD → PrngReg)

/-! ## The parameters as the region finds them -/

theorem v1_eq (c : Dev nD) : @Eq (FVec Ideal S300x256 .bf16) (V m c main_v1)
    (truncf .bf16 (transpose S300x256 [1, 0] (m ((c : Thread nD τ).loc main_arg7)) transposes_S256x300_S300x256_1_0) bitsLt_bf16_f32) := by
  dsimp only [Gen.V, Gen.hostOps0]; after_results
theorem v3_eq (c : Dev nD) : @Eq (FVec Ideal S256x256 .bf16) (V m c main_v3)
    (truncf .bf16 (transpose S256x256 [1, 0] (m ((c : Thread nD τ).loc main_arg9)) transposes_S256x256_S256x256_1_0) bitsLt_bf16_f32) := by
  dsimp only [Gen.V, Gen.hostOps0]; after_results
theorem v5_eq (c : Dev nD) : @Eq (FVec Ideal S300x768 .bf16) (V m c main_v5)
    (truncf .bf16 (transpose S300x768 [1, 0] (m ((c : Thread nD τ).loc main_arg3)) transposes_S768x300_S300x768_1_0) bitsLt_bf16_f32) := by
  dsimp only [Gen.V, Gen.hostOps0]; after_results
theorem v7_eq (c : Dev nD) : @Eq (FVec Ideal S256x768 .bf16) (V m c main_v7)
    (truncf .bf16 (transpose S256x768 [1, 0] (m ((c : Thread nD τ).loc main_arg5)) transposes_S768x256_S256x768_1_0) bitsLt_bf16_f32) := by
  dsimp only [Gen.V, Gen.hostOps0]; after_results
theorem v8_eq (c : Dev nD) : (V m c main_v8 : S1x256.Idx → EReal)
    = shapeCast S1x256 (m ((c : Thread nD τ).loc main_arg8)) shapeCasts_S256_S1x256 := by
  dsimp only [Gen.V, Gen.hostOps0]; after_results; rfl
theorem v9_eq (c : Dev nD) : (V m c main_v9 : S1x256.Idx → EReal)
    = shapeCast S1x256 (m ((c : Thread nD τ).loc main_arg10)) shapeCasts_S256_S1x256 := by
  dsimp only [Gen.V, Gen.hostOps0]; after_results; rfl
theorem v10_eq (c : Dev nD) : (V m c main_v10 : S1x768.Idx → EReal)
    = shapeCast S1x768 (m ((c : Thread nD τ).loc main_arg4)) shapeCasts_S768_S1x768 := by
  dsimp only [Gen.V, Gen.hostOps0]; after_results; rfl
theorem v11_eq (c : Dev nD) : (V m c main_v11 : S1x768.Idx → EReal)
    = shapeCast S1x768 (m ((c : Thread nD τ).loc main_arg6)) shapeCasts_S768_S1x768 := by
  dsimp only [Gen.V, Gen.hostOps0]; after_results; rfl

/-- The staged parameters are the arguments' parameters: a transposed matrix read at `(in, out)` is the matrix at
    `(out, in)`, a bias reshaped to one row read at `(0, out)` is the bias at `out`. -/
theorem params_eq (c : Dev nD) :
    stagedParams (V m c main_v1 : S300x256.Idx → EReal) (V m c main_v8 : S1x256.Idx → EReal)
        (V m c main_v3 : S256x256.Idx → EReal) (V m c main_v9 : S1x256.Idx → EReal)
        (V m c main_v5 : S300x768.Idx → EReal) (V m c main_v10 : S1x768.Idx → EReal)
        (V m c main_v7 : S256x768.Idx → EReal) (V m c main_v11 : S1x768.Idx → EReal)
      = argParams (m ((c : Thread nD τ).loc main_arg3)) (m ((c : Thread nD τ).loc main_arg4))
          (m ((c : Thread nD τ).loc main_arg5)) (m ((c : Thread nD τ).loc main_arg6))
          (m ((c : Thread nD τ).loc main_arg7)) (m ((c : Thread nD τ).loc main_arg8))
          (m ((c : Thread nD τ).loc main_arg9)) (m ((c : Thread nD τ).loc main_arg10)) :=
  Params.ext
    (funext fun g => funext fun j => (congrFun (v1_eq m c) (ix2 j g)).trans (transpose_ix2_apply _ _ j g))
    (funext fun g => (congrFun (v8_eq m c) (ix2 (0 : Fin 1) g)).trans (shapeCast_a_1a_apply _ _ 0 g))
    (funext fun g => funext fun q => (congrFun (v3_eq m c) (ix2 q g)).trans (transpose_ix2_apply _ _ q g))
    (funext fun g => (congrFun (v9_eq m c) (ix2 (0 : Fin 1) g)).trans (shapeCast_a_1a_apply _ _ 0 g))
    (funext fun col => funext fun j => (congrFun (v5_eq m c) (ix2 j col)).trans (transpose_ix2_apply _ _ j col))
    (funext fun col => (congrFun (v10_eq m c) (ix2 (0 : Fin 1) col)).trans (shapeCast_a_1a_apply _ _ 0 col))
    (funext fun col => funext fun q => (congrFun (v7_eq m c) (ix2 q col)).trans (transpose_ix2_apply _ _ q col))
    (funext fun col => (congrFun (v11_eq m c) (ix2 (0 : Fin 1) col)).trans (shapeCast_a_1a_apply _ _ 0 col))

/-! ## The blocks a grid point stages -/

/-- The printed index maps, decided over the 128 grid points: the three streamed inputs and the result move one
    512-row block per point along the node axis; every parameter window stays at its one block. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 3) = 0 ∧ win0_11.index t (1 : Fin 3) = t.val ∧ win0_11.index t (2 : Fin 3) = 0 :=
  (by decide +kernel : ∀ t : Fin grid0.N, _)

theorem t_lt (t : Fin cfg0.N) : t.val < 128 := by
  have h := t.isLt
  have e : cfg0.N = 128 := N_0
  omega

/-- The staged blocks at point `t`, each at its literal type. -/
abbrev b0 (c : Dev nD) (t : Fin cfg0.N) : Vec Ideal S512x300 .f32 := iblk m c 0 t
abbrev b1 (c : Dev nD) (t : Fin cfg0.N) : Vec Ideal S512x4x256 .f32 := iblk m c 1 t
abbrev b2 (c : Dev nD) (t : Fin cfg0.N) : Vec Ideal S512x4x256 .f32 := iblk m c 2 t
abbrev b3 (c : Dev nD) (t : Fin cfg0.N) : Vec Ideal S300x256 .bf16 := iblk m c 3 t
abbrev b4 (c : Dev nD) (t : Fin cfg0.N) : Vec Ideal S1x256 .f32 := iblk m c 4 t
abbrev b5 (c : Dev nD) (t : Fin cfg0.N) : Vec Ideal S256x256 .bf16 := iblk m c 5 t
abbrev b6 (c : Dev nD) (t : Fin cfg0.N) : Vec Ideal S1x256 .f32 := iblk m c 6 t
abbrev b7 (c : Dev nD) (t : Fin cfg0.N) : Vec Ideal S300x768 .bf16 := iblk m c 7 t
abbrev b8 (c : Dev nD) (t : Fin cfg0.N) : Vec Ideal S1x768 .f32 := iblk m c 8 t
abbrev b9 (c : Dev nD) (t : Fin cfg0.N) : Vec Ideal S256x768 .bf16 := iblk m c 9 t
abbrev b10 (c : Dev nD) (t : Fin cfg0.N) : Vec Ideal S1x768 .f32 := iblk m c 10 t

/-- Row `r` of point `t`'s input block is row `512 t + r` of the input array. -/
theorem b0_apply (c : Dev nD) (t : Fin cfg0.N) (r : Fin 512) (j : Fin 300) :
    b0 m c t (ix2 r j)
      = (m ((c : Thread nD τ).loc main_arg0) : S65536x300.Idx → EReal)
          (ix2 ⟨512 * t.val + r.val, by have := t_lt t; omega⟩ j) := by
  rw [← V_main_arg0 m c]
  show V m c main_arg0 (((cfg0.win 0).blk t).view.emb (ix2 r j)) = _
  refine congrArg (V m c main_arg0) (funext fun a => Fin.ext ?_)
  obtain ⟨e0, e1, -⟩ := idx_facts t
  match a with
  | ⟨0, _⟩ => show win0_0.index t (0 : Fin 2) * 512 + 1 * r.val = 512 * t.val + r.val; omega
  | ⟨1, _⟩ => show win0_0.index t (1 : Fin 2) * 300 + 1 * j.val = j.val; omega

/-- Member `(r, k)` of point `t`'s block of the children's hidden states is member `(512 t + r, k)` of the array. -/
theorem b1_apply (c : Dev nD) (t : Fin cfg0.N) (r : Fin 512) (k : Fin 4) (q : Fin 256) :
    b1 m c t (ix3 r k q)
      = (m ((c : Thread nD τ).loc main_arg1) : S65536x4x256.Idx → EReal)
          (ix3 ⟨512 * t.val + r.val, by have := t_lt t; omega⟩ k q) := by
  rw [← V_main_arg1 m c]
  show V m c main_arg1 (((cfg0.win 1).blk t).view.emb (ix3 r k q)) = _
  refine congrArg (V m c main_arg1) (funext fun a => Fin.ext ?_)
  obtain ⟨-, -, e0, e1, e2, -⟩ := idx_facts t
  match a with
  | ⟨0, _⟩ => show win0_1.index t (0 : Fin 3) * 512 + 1 * r.val = 512 * t.val + r.val; omega
  | ⟨1, _⟩ => show win0_1.index t (1 : Fin 3) * 4 + 1 * k.val = k.val; omega
  | ⟨2, _⟩ => show win0_1.index t (2 : Fin 3) * 256 + 1 * q.val = q.val; omega

/-- The same for the children's memories. -/
theorem b2_apply (c : Dev nD) (t : Fin cfg0.N) (r : Fin 512) (k : Fin 4) (q : Fin 256) :
    b2 m c t (ix3 r k q)
      = (m ((c : Thread nD τ).loc main_arg2) : S65536x4x256.Idx → EReal)
          (ix3 ⟨512 * t.val + r.val, by have := t_lt t; omega⟩ k q) := by
  rw [← V_main_arg2 m c]
  show V m c main_arg2 (((cfg0.win 2).blk t).view.emb (ix3 r k q)) = _
  refine congrArg (V m c main_arg2) (funext fun a => Fin.ext ?_)
  obtain ⟨-, -, -, -, -, e0, e1, e2, -⟩ := idx_facts t
  match a with
  | ⟨0, _⟩ => show win0_2.index t (0 : Fin 3) * 512 + 1 * r.val = 512 * t.val + r.val; omega
  | ⟨1, _⟩ => show win0_2.index t (1 : Fin 3) * 4 + 1 * k.val = k.val; omega
  | ⟨2, _⟩ => show win0_2.index t (2 : Fin 3) * 256 + 1 * q.val = q.val; omega

/-- A parameter window has one block, the whole array: what point `t` stages of it is the array as the region finds it. -/
theorem b3_eq (c : Dev nD) (t : Fin cfg0.N) : b3 m c t = (V m c main_v1 : S300x256.Idx → EReal) := by
  funext y
  show V m c main_v1 (((cfg0.win 3).blk t).view.emb y) = V m c main_v1 y
  refine congrArg (V m c main_v1) (funext fun a => Fin.ext ?_)
  obtain ⟨a00, a01, a10, a11, a12, a20, a21, a22, a30, a31, a40, a41, a50, a51, a60, a61, a70, a71, a80, a81, a90, a91, aA0, aA1, aB0, aB1, aB2⟩ := idx_facts t
  match a with
  | ⟨0, _⟩ => show win0_3.index t (0 : Fin 2) * 300 + 1 * (y 0).val = (y 0).val; omega
  | ⟨1, _⟩ => show win0_3.index t (1 : Fin 2) * 256 + 1 * (y 1).val = (y 1).val; omega
theorem b4_eq (c : Dev nD) (t : Fin cfg0.N) : b4 m c t = (V m c main_v8 : S1x256.Idx → EReal) := by
  funext y
  show V m c main_v8 (((cfg0.win 4).blk t).view.emb y) = V m c main_v8 y
  refine congrArg (V m c main_v8) (funext fun a => Fin.ext ?_)
  obtain ⟨a00, a01, a10, a11, a12, a20, a21, a22, a30, a31, a40, a41, a50, a51, a60, a61, a70, a71, a80, a81, a90, a91, aA0, aA1, aB0, aB1, aB2⟩ := idx_facts t
  match a with
  | ⟨0, _⟩ => show win0_4.index t (0 : Fin 2) * 1 + 1 * (y 0).val = (y 0).val; omega
  | ⟨1, _⟩ => show win0_4.index t (1 : Fin 2) * 256 + 1 * (y 1).val = (y 1).val; omega
theorem b5_eq (c : Dev nD) (t : Fin cfg0.N) : b5 m c t = (V m c main_v3 : S256x256.Idx → EReal) := by
  funext y
  show V m c main_v3 (((cfg0.win 5).blk t).view.emb y) = V m c main_v3 y
  refine congrArg (V m c main_v3) (funext fun a => Fin.ext ?_)
  obtain ⟨a00, a01, a10, a11, a12, a20, a21, a22, a30, a31, a40, a41, a50, a51, a60, a61, a70, a71, a80, a81, a90, a91, aA0, aA1, aB0, aB1, aB2⟩ := idx_facts t
  match a with
  | ⟨0, _⟩ => show win0_5.index t (0 : Fin 2) * 256 + 1 * (y 0).val = (y 0).val; omega
  | ⟨1, _⟩ => show win0_5.index t (1 : Fin 2) * 256 + 1 * (y 1).val = (y 1).val; omega
theorem b6_eq (c : Dev nD) (t : Fin cfg0.N) : b6 m c t = (V m c main_v9 : S1x256.Idx → EReal) := by
  funext y
  show V m c main_v9 (((cfg0.win 6).blk t).view.emb y) = V m c main_v9 y
  refine congrArg (V m c main_v9) (funext fun a => Fin.ext ?_)
  obtain ⟨a00, a01, a10, a11, a12, a20, a21, a22, a30, a31, a40, a41, a50, a51, a60, a61, a70, a71, a80, a81, a90, a91, aA0, aA1, aB0, aB1, aB2⟩ := idx_facts t
  match a with
  | ⟨0, _⟩ => show win0_6.index t (0 : Fin 2) * 1 + 1 * (y 0).val = (y 0).val; omega
  | ⟨1, _⟩ => show win0_6.index t (1 : Fin 2) * 256 + 1 * (y 1).val = (y 1).val; omega
theorem b7_eq (c : Dev nD) (t : Fin cfg0.N) : b7 m c t = (V m c main_v5 : S300x768.Idx → EReal) := by
  funext y
  show V m c main_v5 (((cfg0.win 7).blk t).view.emb y) = V m c main_v5 y
  refine congrArg (V m c main_v5) (funext fun a => Fin.ext ?_)
  obtain ⟨a00, a01, a10, a11, a12, a20, a21, a22, a30, a31, a40, a41, a50, a51, a60, a61, a70, a71, a80, a81, a90, a91, aA0, aA1, aB0, aB1, aB2⟩ := idx_facts t
  match a with
  | ⟨0, _⟩ => show win0_7.index t (0 : Fin 2) * 300 + 1 * (y 0).val = (y 0).val; omega
  | ⟨1, _⟩ => show win0_7.index t (1 : Fin 2) * 768 + 1 * (y 1).val = (y 1).val; omega
theorem b8_eq (c : Dev nD) (t : Fin cfg0.N) : b8 m c t = (V m c main_v10 : S1x768.Idx → EReal) := by
  funext y
  show V m c main_v10 (((cfg0.win 8).blk t).view.emb y) = V m c main_v10 y
  refine congrArg (V m c main_v10) (funext fun a => Fin.ext ?_)
  obtain ⟨a00, a01, a10, a11, a12, a20, a21, a22, a30, a31, a40, a41, a50, a51, a60, a61, a70, a71, a80, a81, a90, a91, aA0, aA1, aB0, aB1, aB2⟩ := idx_facts t
  match a with
  | ⟨0, _⟩ => show win0_8.index t (0 : Fin 2) * 1 + 1 * (y 0).val = (y 0).val; omega
  | ⟨1, _⟩ => show win0_8.index t (1 : Fin 2) * 768 + 1 * (y 1).val = (y 1).val; omega
theorem b9_eq (c : Dev nD) (t : Fin cfg0.N) : b9 m c t = (V m c main_v7 : S256x768.Idx → EReal) := by
  funext y
  show V m c main_v7 (((cfg0.win 9).blk t).view.emb y) = V m c main_v7 y
  refine congrArg (V m c main_v7) (funext fun a => Fin.ext ?_)
  obtain ⟨a00, a01, a10, a11, a12, a20, a21, a22, a30, a31, a40, a41, a50, a51, a60, a61, a70, a71, a80, a81, a90, a91, aA0, aA1, aB0, aB1, aB2⟩ := idx_facts t
  match a with
  | ⟨0, _⟩ => show win0_9.index t (0 : Fin 2) * 256 + 1 * (y 0).val = (y 0).val; omega
  | ⟨1, _⟩ => show win0_9.index t (1 : Fin 2) * 768 + 1 * (y 1).val = (y 1).val; omega
theorem b10_eq (c : Dev nD) (t : Fin cfg0.N) : b10 m c t = (V m c main_v11 : S1x768.Idx → EReal) := by
  funext y
  show V m c main_v11 (((cfg0.win 10).blk t).view.emb y) = V m c main_v11 y
  refine congrArg (V m c main_v11) (funext fun a => Fin.ext ?_)
  obtain ⟨a00, a01, a10, a11, a12, a20, a21, a22, a30, a31, a40, a41, a50, a51, a60, a61, a70, a71, a80, a81, a90, a91, aA0, aA1, aB0, aB1, aB2⟩ := idx_facts t
  match a with
  | ⟨0, _⟩ => show win0_10.index t (0 : Fin 2) * 1 + 1 * (y 0).val = (y 0).val; omega
  | ⟨1, _⟩ => show win0_10.index t (1 : Fin 2) * 768 + 1 * (y 1).val = (y 1).val; omega

/-! ## The result array -/

/-- The cells of all nodes, as one function of the argument arrays. -/
def cellsOfArgs (c : Dev nD) : S2x65536x256.Idx → EReal :=
  cellsOut (argParams (m ((c : Thread nD τ).loc main_arg3)) (m ((c : Thread nD τ).loc main_arg4))
      (m ((c : Thread nD τ).loc main_arg5)) (m ((c : Thread nD τ).loc main_arg6))
      (m ((c : Thread nD τ).loc main_arg7)) (m ((c : Thread nD τ).loc main_arg8))
      (m ((c : Thread nD τ).loc main_arg9)) (m ((c : Thread nD τ).loc main_arg10)))
    (m ((c : Thread nD τ).loc main_arg0)) (m ((c : Thread nD τ).loc main_arg1)) (m ((c : Thread nD τ).loc main_arg2))

/-- WHAT POINT `t` WRITES BACK is block `t` of the cells of all nodes. -/
theorem flushed_eq (c : Dev nD) (t : Fin cfg0.N) :
    (dats m 0 c).flushed 11 t = ((cfg0.win 11).blk t).view.read (Elt Ideal) (cellsOfArgs m c) := by
  rw [Cert.KernelIdeal.Value.flushed11]
  refine funext fun (y : S2x512x256.Idx) => ?_
  show out0_11 (F := Ideal) (b0 m c t) (b1 m c t) (b2 m c t) (b3 m c t) (b4 m c t) (b5 m c t) (b6 m c t) (b7 m c t)
      (b8 m c t) (b9 m c t) (b10 m c t) y = cellsOfArgs m c (((cfg0.win 11).blk t).view.emb y)
  rw [out_blk, b3_eq, b4_eq, b5_eq, b6_eq, b7_eq, b8_eq, b9_eq, b10_eq, params_eq]
  obtain ⟨s, r, g, rfl⟩ : ∃ (s : Fin 2) (r : Fin 512) (g : Fin 256), y = ix3 s r g := ⟨y 0, y 1, y 2, eq_ix3 y⟩
  have ht := t_lt t
  have he : ((cfg0.win 11).blk t).view.emb (ix3 s r g) = ix3 s ⟨512 * t.val + r.val, by omega⟩ g :=
    funext fun a => Fin.ext (by
      obtain ⟨a00, a01, a10, a11, a12, a20, a21, a22, a30, a31, a40, a41, a50, a51, a60, a61, a70, a71, a80, a81, a90, a91, aA0, aA1, aB0, aB1, aB2⟩ := idx_facts t
      match a with
      | ⟨0, _⟩ => show win0_11.index t (0 : Fin 3) * 2 + 1 * s.val = s.val; omega
      | ⟨1, _⟩ => show win0_11.index t (1 : Fin 3) * 512 + 1 * r.val = 512 * t.val + r.val; omega
      | ⟨2, _⟩ => show win0_11.index t (2 : Fin 3) * 256 + 1 * g.val = g.val; omega)
  rw [he]
  exact cellsOut_rows _ _ _ _ (b0 m c t) (b1 m c t) (b2 m c t) (512 * t.val) (by omega)
    (b0_apply m c t) (b1_apply m c t) (b2_apply m c t) s r g

/-- An index of the result is in point `t`'s block iff each coordinate is in the block's range on its axis. -/
theorem mem_blk (t : Fin cfg0.N) (i : S2x65536x256.Idx) :
    i ∈ ((cfg0.win 11).blk t).view.set ↔ ∀ a : Fin 3, win0_11.index t a * S2x512x256.size a ≤ (i a).val
      ∧ (i a).val < win0_11.index t a * S2x512x256.size a + S2x512x256.size a := by
  show i ∈ ((View.whole main_v12).slice (win0_11.rect t)).set ↔ _
  rw [View.set_slice_whole, Rect.mem_set_unit]
  exact Iff.rfl

/-- The 128 blocks tile the result: node `n` is in block `n / 512`. -/
theorem cover (i : S2x65536x256.Idx) :
    ∃ t : Fin cfg0.N, (cfg0.win 11).flush t = true ∧ i ∈ ((cfg0.win 11).blk t).view.set := by
  have hi0 : (i 0).val < 2 := (i 0).isLt
  have hi1 : (i 1).val < 65536 := (i 1).isLt
  have hi2 : (i 2).val < 256 := (i 2).isLt
  have hN : cfg0.N = 128 := N_0
  refine ⟨⟨(i 1).val / 512, by omega⟩, flush0_11 _, ?_⟩
  rw [mem_blk]
  obtain ⟨a00, a01, a10, a11, a12, a20, a21, a22, a30, a31, a40, a41, a50, a51, a60, a61, a70, a71, a80, a81, a90, a91, aA0, aA1, aB0, aB1, aB2⟩ := idx_facts ⟨(i 1).val / 512, by omega⟩
  intro a
  match a with
  | ⟨0, _⟩ =>
    show win0_11.index ⟨(i 1).val / 512, _⟩ (0 : Fin 3) * 2 ≤ (i 0).val
      ∧ (i 0).val < win0_11.index ⟨(i 1).val / 512, _⟩ (0 : Fin 3) * 2 + 2
    omega
  | ⟨1, _⟩ =>
    show win0_11.index ⟨(i 1).val / 512, _⟩ (1 : Fin 3) * 512 ≤ (i 1).val
      ∧ (i 1).val < win0_11.index ⟨(i 1).val / 512, _⟩ (1 : Fin 3) * 512 + 512
    have : (⟨(i 1).val / 512, by omega⟩ : Fin cfg0.N).val = (i 1).val / 512 := rfl
    omega
  | ⟨2, _⟩ =>
    show win0_11.index ⟨(i 1).val / 512, _⟩ (2 : Fin 3) * 256 ≤ (i 2).val
      ∧ (i 2).val < win0_11.index ⟨(i 1).val / 512, _⟩ (2 : Fin 3) * 256 + 256
    omega

/-- THE RESULT ARRAY after the run is the cells of all nodes. -/
theorem final (c : Dev nD) : (dats m 0 c).arrAt 11 cfg0.N = cellsOfArgs m c :=
  (dats m 0 c).arrAt_eq_of_cover 11 (cellsOfArgs m c) (fun t _ => flushed_eq m c t) cover

/-- The kernel's run: every weakly fair execution ends with the result at the cells of all nodes and the arguments
    unchanged. -/
theorem run : θ_run defs (onTc (τ := τ) (main (F := Ideal))) ⟨m, fun _ => 0, ρ⟩ fun r => ∀ c : Dev nD,
      r.2.mem ((c : Thread nD τ).loc main_v12) = cellsOfArgs m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Cert.KernelIdeal.Value.run_blocks m ρ)

end Cert.TreeCell.Arr

end
-- ==== Proof.RefValue.lean ====
/-
  What the reference computes, read one stage at a time: every stage of its host program, at an index, is the
  corresponding quantity of the child-sum tree-LSTM cell of that node (Spec.lean). The sigmoid is spelled on the host as
  one over one plus the exponential of the negation, which is the logistic function; each `jnp.sum` over the four
  children starts from the float zero; the three gates are three column slices of one fused 768-wide product; the
  result stacks the hidden states on the memories.
-/
import proofs.«161287_j22351009808691_1_alg».proof.Proof.Gen.ReferenceIdeal.Read
import proofs.«161287_j22351009808691_1_alg».proof.Proof.Spec

noncomputable section

open scoped BigOperators

namespace Cert.TreeCell.Ref

open Cert.ReferenceIdeal Cert.ReferenceIdeal.Read Cert.TreeCell Idealize.ShloMosaic Idealize.ShloMosaic.ValueIdx
open Idealize.ShloMosaic.TcCoe Idealize.SL.Sem

variable (x0 : FVec Ideal S65536x300 .f32) (x1 x2 : FVec Ideal S65536x4x256 .f32)
  (x3 : FVec Ideal S768x300 .f32) (x4 : FVec Ideal S768 .f32) (x5 : FVec Ideal S768x256 .f32) (x6 : FVec Ideal S768 .f32)
  (x7 : FVec Ideal S256x300 .f32) (x8 : FVec Ideal S256 .f32) (x9 : FVec Ideal S256x256 .f32) (x10 : FVec Ideal S256 .f32)

/-- The cell's parameters as the reference's arguments hold them. -/
abbrev P : Params := argParams x3 x4 x5 x6 x7 x8 x9 x10

/-- Node `n`'s input row, -/
abbrev xrow (n : Fin 65536) : Fin 300 → EReal := fun j => x0 (ix2 n j)
/-- its children's hidden rows -/
abbrev hrow (n : Fin 65536) : Fin 4 → Fin 256 → EReal := fun k q => x1 (ix3 n k q)
/-- and memory rows. -/
abbrev crow (n : Fin 65536) : Fin 4 → Fin 256 → EReal := fun k q => x2 (ix3 n k q)

/-- `x @ W_f.T + b_Wf` at `(n, g)`. -/
theorem wx_eq (n : Fin 65536) (g : Fin 256) :
    val_main_v5 (F := Ideal) x0 x7 x8 (ix2 n g) = wx (P x3 x4 x5 x6 x7 x8 x9 x10) (xrow x0 n) g := by
  rw [val_main_v5_apply, val_main_v2_apply, val_main_v4_apply, val_main_v3_apply]
  have el : ∀ k : Fin 300, lidx_main_v2 (ix2 n g) k = ix2 n k := fun k =>
    funext fun a => Fin.ext (by match a with | ⟨0, _⟩ => rfl | ⟨1, _⟩ => rfl)
  have er : ∀ k : Fin 300, idx_main_v1 (ridx_main_v2 (ix2 n g) k) = ix2 g k := fun k =>
    funext fun a => Fin.ext (by match a with | ⟨0, _⟩ => rfl | ⟨1, _⟩ => rfl)
  have eb : idx_main_v3 (idx_main_v4 (ix2 n g)) = ix1 g :=
    funext fun a => Fin.ext (by match a with | ⟨0, _⟩ => rfl)
  simp only [val_main_v1_apply, el, er, eb]
  rfl

/-- `einsum('nkh,gh->nkg', h_msgs, U_f) + b_Uf` at `(n, k, g)`. -/
theorem uh_eq (n : Fin 65536) (k : Fin 4) (g : Fin 256) :
    val_main_v10 (F := Ideal) x1 x9 x10 (ix3 n k g) = uh (P x3 x4 x5 x6 x7 x8 x9 x10) (hrow x1 n) k g := by
  rw [val_main_v10_apply, val_main_v7_apply, val_main_v9_apply, val_main_v8_apply]
  have el : ∀ q : Fin 256, lidx_main_v7 (ix3 n k g) q = ix3 n k q := fun q =>
    funext fun a => Fin.ext (by match a with | ⟨0, _⟩ => rfl | ⟨1, _⟩ => rfl | ⟨2, _⟩ => rfl)
  have er : ∀ q : Fin 256, ridx_main_v7 (ix3 n k g) q = ix2 g q := fun q =>
    funext fun a => Fin.ext (by match a with | ⟨0, _⟩ => rfl | ⟨1, _⟩ => rfl)
  have eb : idx_main_v8 (idx_main_v9 (ix3 n k g)) = ix1 g :=
    funext fun a => Fin.ext (by match a with | ⟨0, _⟩ => rfl)
  simp only [el, er, eb]
  rfl

/-- `sigmoid(wx + uh)` at `(n, k, g)`: the host spells the sigmoid as `1 / (1 + exp (-·))`. -/
theorem fgate_eq (n : Fin 65536) (k : Fin 4) (g : Fin 256) :
    val_main_v18 (F := Ideal) x0 x1 x7 x8 x9 x10 (ix3 n k g)
      = fgate (P x3 x4 x5 x6 x7 x8 x9 x10) (xrow x0 n) (hrow x1 n) k g := by
  rw [val_main_v18_apply, val_main_v17_apply, val_main_cst_1_apply, val_main_v16_apply, val_main_v15_apply,
    val_main_cst_0_apply, val_main_v14_apply, val_main_v13_apply, val_main_v12_apply, val_main_v11_apply,
    val_main_v6_apply]
  have e : idx_main_v6 (idx_main_v11 (ix3 n k g)) = ix2 n g :=
    funext fun a => Fin.ext (by match a with | ⟨0, _⟩ => rfl | ⟨1, _⟩ => rfl)
  rw [e, wx_eq x0 x3 x4 x5 x6 x7 x8 x9 x10, uh_eq x1 x3 x4 x5 x6 x7 x8 x9 x10]
  exact logistic_spelled _

/-- `sum(f * c_msgs, axis=1)` at `(n, g)`. -/
theorem ctild_eq (n : Fin 65536) (g : Fin 256) :
    val_main_v20 (F := Ideal) x0 x1 x2 x7 x8 x9 x10 (ix2 n g)
      = ctild (P x3 x4 x5 x6 x7 x8 x9 x10) (xrow x0 n) (hrow x1 n) (crow x2 n) g := by
  rw [val_main_v20_apply, val_main_cst_2_apply]
  have e : ∀ k : Fin 4, idx_main_v20 (ix2 n g) k = ix3 n k g := fun k =>
    funext fun a => Fin.ext (by match a with | ⟨0, _⟩ => rfl | ⟨1, _⟩ => rfl | ⟨2, _⟩ => rfl)
  simp only [e, val_main_v19_apply, fgate_eq x0 x1 x3 x4 x5 x6 x7 x8 x9 x10]
  show Ideal.ofBits .f32 0x00000000#32 + _ = _
  rw [Ideal.ofBits_zero_f32, zero_add]
  rfl

/-- `sum(h_msgs, axis=1)` at `(n, q)`. -/
theorem htild_eq (n : Fin 65536) (q : Fin 256) :
    val_main_v0 (F := Ideal) x1 (ix2 n q) = htild (hrow x1 n) q := by
  rw [val_main_v0_apply, val_main_cst_apply]
  have e : ∀ k : Fin 4, idx_main_v0 (ix2 n q) k = ix3 n k q := fun k =>
    funext fun a => Fin.ext (by match a with | ⟨0, _⟩ => rfl | ⟨1, _⟩ => rfl | ⟨2, _⟩ => rfl)
  simp only [e]
  show Ideal.ofBits .f32 0x00000000#32 + _ = _
  rw [Ideal.ofBits_zero_f32, zero_add]
  rfl

/-- `(x @ W_iou.T + b_iou) + (h_tild @ U_iou.T + b_Uiou)` at `(n, col)`. -/
theorem iou_eq (n : Fin 65536) (col : Fin 768) :
    val_main_v31 (F := Ideal) x0 x1 x3 x4 x5 x6 (ix2 n col)
      = iou (P x3 x4 x5 x6 x7 x8 x9 x10) (xrow x0 n) (hrow x1 n) col := by
  rw [val_main_v31_apply, val_main_v25_apply, val_main_v22_apply, val_main_v24_apply, val_main_v23_apply,
    val_main_v30_apply, val_main_v27_apply, val_main_v29_apply, val_main_v28_apply]
  have el : ∀ k : Fin 300, lidx_main_v22 (ix2 n col) k = ix2 n k := fun k =>
    funext fun a => Fin.ext (by match a with | ⟨0, _⟩ => rfl | ⟨1, _⟩ => rfl)
  have er : ∀ k : Fin 300, idx_main_v21 (ridx_main_v22 (ix2 n col) k) = ix2 col k := fun k =>
    funext fun a => Fin.ext (by match a with | ⟨0, _⟩ => rfl | ⟨1, _⟩ => rfl)
  have eb : idx_main_v23 (idx_main_v24 (ix2 n col)) = ix1 col :=
    funext fun a => Fin.ext (by match a with | ⟨0, _⟩ => rfl)
  have el' : ∀ q : Fin 256, lidx_main_v27 (ix2 n col) q = ix2 n q := fun q =>
    funext fun a => Fin.ext (by match a with | ⟨0, _⟩ => rfl | ⟨1, _⟩ => rfl)
  have er' : ∀ q : Fin 256, idx_main_v26 (ridx_main_v27 (ix2 n col) q) = ix2 col q := fun q =>
    funext fun a => Fin.ext (by match a with | ⟨0, _⟩ => rfl | ⟨1, _⟩ => rfl)
  have eb' : idx_main_v28 (idx_main_v29 (ix2 n col)) = ix1 col :=
    funext fun a => Fin.ext (by match a with | ⟨0, _⟩ => rfl)
  simp only [val_main_v21_apply, val_main_v26_apply, el, er, eb, el', er', eb', htild_eq]
  rfl

/-- `sigmoid(i) * tanh(u) + c_tild` at `(n, g)`: the node's memory. -/
theorem cellC_eq (n : Fin 65536) (g : Fin 256) :
    val_main_v49 (F := Ideal) x0 x1 x2 x3 x4 x5 x6 x7 x8 x9 x10 (ix2 n g)
      = cellC (P x3 x4 x5 x6 x7 x8 x9 x10) (xrow x0 n) (hrow x1 n) (crow x2 n) g := by
  rw [val_main_v49_apply, val_main_v48_apply, val_main_v40_apply, val_main_v39_apply, val_main_cst_4_apply,
    val_main_v38_apply, val_main_v37_apply, val_main_cst_3_apply, val_main_v36_apply, val_main_v35_apply,
    val_main_v32_apply, val_main_v47_apply, val_main_v34_apply,
    ctild_eq x0 x1 x2 x3 x4 x5 x6 x7 x8 x9 x10]
  have eI : idx_main_v32 (ix2 n g) = ix2 n (colI g) :=
    funext fun a => Fin.ext (by match a with | ⟨0, _⟩ => rfl | ⟨1, _⟩ => rfl)
  have eU : idx_main_v34 (ix2 n g) = ix2 n (colU g) :=
    funext fun a => Fin.ext (by match a with | ⟨0, _⟩ => rfl | ⟨1, _⟩ => rfl)
  rw [eI, eU, iou_eq x0 x1 x3 x4 x5 x6 x7 x8 x9 x10, iou_eq x0 x1 x3 x4 x5 x6 x7 x8 x9 x10]
  show Ideal.div (Ideal.ofBits .f32 0x3F800000#32) (Ideal.ofBits .f32 0x3F800000#32 + Ideal.exp (-_)) * Ideal.tanh _ + _ = _
  rw [logistic_spelled]
  rfl

/-- `sigmoid(o) * tanh(c)` at `(n, g)`: the node's hidden state. -/
theorem cellH_eq (n : Fin 65536) (g : Fin 256) :
    val_main_v51 (F := Ideal) x0 x1 x2 x3 x4 x5 x6 x7 x8 x9 x10 (ix2 n g)
      = cellH (P x3 x4 x5 x6 x7 x8 x9 x10) (xrow x0 n) (hrow x1 n) (crow x2 n) g := by
  rw [val_main_v51_apply, val_main_v46_apply, val_main_v45_apply, val_main_cst_6_apply,
    val_main_v44_apply, val_main_v43_apply, val_main_cst_5_apply, val_main_v42_apply, val_main_v41_apply,
    val_main_v33_apply, val_main_v50_apply, cellC_eq x0 x1 x2 x3 x4 x5 x6 x7 x8 x9 x10]
  have eO : idx_main_v33 (ix2 n g) = ix2 n (colO g) :=
    funext fun a => Fin.ext (by match a with | ⟨0, _⟩ => rfl | ⟨1, _⟩ => rfl)
  rw [eO, iou_eq x0 x1 x3 x4 x5 x6 x7 x8 x9 x10]
  show Ideal.div (Ideal.ofBits .f32 0x3F800000#32) (Ideal.ofBits .f32 0x3F800000#32 + Ideal.exp (-_)) * Ideal.tanh _ = _
  rw [logistic_spelled]
  rfl

/-- `stack((h, c))`: member 0 of the result is the hidden states, member 1 the memories. -/
theorem out_eq (i : S2x65536x256.Idx) :
    val_main_v54 (F := Ideal) x0 x1 x2 x3 x4 x5 x6 x7 x8 x9 x10 i
      = cellsOut (P x3 x4 x5 x6 x7 x8 x9 x10) x0 x1 x2 i := by
  obtain ⟨s, n, g, rfl⟩ : ∃ (s : Fin 2) (n : Fin 65536) (g : Fin 256), i = ix3 s n g := ⟨i 0, i 1, i 2, eq_ix3 i⟩
  unfold val_main_v54
  have e52 : idx_main_v52 (ix3 (0 : Fin 1) n g) = ix2 n g :=
    funext fun a => Fin.ext (by match a with | ⟨0, _⟩ => rfl | ⟨1, _⟩ => rfl)
  have e53 : idx_main_v53 (ix3 (0 : Fin 1) n g) = ix2 n g :=
    funext fun a => Fin.ext (by match a with | ⟨0, _⟩ => rfl | ⟨1, _⟩ => rfl)
  have hs : s = 0 ∨ s = 1 := by omega
  rcases hs with rfl | rfl
  · refine (concatenate_pair_apply_left (t := S2x65536x256) (s₁ := S1x65536x256) (s₂ := S1x65536x256) (0 : Fin 3) _ _ _
      (ix3 (0 : Fin 2) n g) rfl (ix3 (0 : Fin 1) n g) (fun b => by
        match b with | ⟨0, _⟩ => rfl | ⟨1, _⟩ => rfl | ⟨2, _⟩ => rfl)).trans ?_
    rw [val_main_v52_apply, e52, cellH_eq x0 x1 x2 x3 x4 x5 x6 x7 x8 x9 x10]
    rfl
  · refine (concatenate_pair_apply_right (t := S2x65536x256) (s₁ := S1x65536x256) (s₂ := S1x65536x256) (0 : Fin 3) _ _ _
      (ix3 (1 : Fin 2) n g) rfl rfl (ix3 (0 : Fin 1) n g) (fun b hb => by
        match b with | ⟨0, _⟩ => exact absurd rfl hb | ⟨1, _⟩ => rfl | ⟨2, _⟩ => rfl) rfl).trans ?_
    rw [val_main_v53_apply, e53, cellC_eq x0 x1 x2 x3 x4 x5 x6 x7 x8 x9 x10]
    rfl

/-- THE REFERENCE'S RESULT is the cells of all nodes, as one function of its argument arrays. -/
theorem res_eq (m : (ℓ : Loc nD τ sig) → Buf (Elt Ideal) ℓ) (c : Dev nD) :
    Cert.ReferenceIdeal.Value.res_main_v54 (F := Ideal) m c
      = cellsOut (argParams (m ((c.tc : Thread nD τ).loc main_arg3)) (m ((c.tc : Thread nD τ).loc main_arg4))
          (m ((c.tc : Thread nD τ).loc main_arg5)) (m ((c.tc : Thread nD τ).loc main_arg6))
          (m ((c.tc : Thread nD τ).loc main_arg7)) (m ((c.tc : Thread nD τ).loc main_arg8))
          (m ((c.tc : Thread nD τ).loc main_arg9)) (m ((c.tc : Thread nD τ).loc main_arg10)))
        (m ((c.tc : Thread nD τ).loc main_arg0)) (m ((c.tc : Thread nD τ).loc main_arg1))
        (m ((c.tc : Thread nD τ).loc main_arg2)) := by
  rw [val_main_v54_eq]
  exact funext (out_eq _ _ _ _ _ _ _ _ _ _ _)

end Cert.TreeCell.Ref

end
-- ==== Proof.lean ====
/-
  The child-sum tree-LSTM cell: a Pallas kernel that sweeps the 65536 nodes in 128 blocks of 512, against its jnp reference.

  For node `n` with input row `x`, children's hidden rows `h_k` and memory rows `c_k` (k = 0 … 3) both programs compute
  the forget gates `f_k = σ(x W_fᵀ + b_Wf + h_k U_fᵀ + b_Uf)`, the gated sum `c̃ = ∑ₖ f_k ⊙ c_k`, the children's sum
  `h̃ = ∑ₖ h_k`, the fused pre-activation `iou = (x W_iouᵀ + b_iou) + (h̃ U_iouᵀ + b_Uiou)`, and from its three column
  thirds `c = σ(i) ⊙ tanh(u) + c̃` and `h = σ(o) ⊙ tanh(c)`; the result stacks `h` on `c` (Proof/Spec.lean).

  The kernel differs from the reference in the order of its sums (the four children are added one after the other, the
  gated sum from a zero accumulator; the four summands of `iou` left to right), in casting its matrix operands to bf16
  (the identity on the extended reals), in taking the weights transposed and the biases as one row (host operations
  before the call), in `tpu.logistic` for the reference's `1 / (1 + exp (-·))`, and in its tiling. Addition of extended
  reals is commutative and associative, so none of this needs the inputs finite: the precondition is never opened.

  The frames of the two kernel programs, the kernel's run block by block and the reference's run with its stages read at
  an index are the generated modules'. The cell as one function is Proof/Spec.lean; each stage of the reference is the
  cell's (RefValue); the body's values on a block are the cell's (Payload, BlockCells); the blocks tile the result and
  the staged parameters are the arguments' (ArrayValue).
-/
import proofs.«161287_j22351009808691_1_alg».proof.Defs
import proofs.«161287_j22351009808691_1_alg».proof.Proof.Gen.Kernel
import proofs.«161287_j22351009808691_1_alg».proof.Proof.Gen.Kernel.Skeleton
import proofs.«161287_j22351009808691_1_alg».proof.Proof.Gen.Kernel.Launch
import proofs.«161287_j22351009808691_1_alg».proof.Proof.Gen.Kernel.Points
import proofs.«161287_j22351009808691_1_alg».proof.Proof.Gen.Kernel.Frame
import proofs.«161287_j22351009808691_1_alg».proof.Proof.Gen.KernelIdeal
import proofs.«161287_j22351009808691_1_alg».proof.Proof.Gen.KernelIdeal.Skeleton
import proofs.«161287_j22351009808691_1_alg».proof.Proof.Gen.KernelIdeal.Launch
import proofs.«161287_j22351009808691_1_alg».proof.Proof.Gen.KernelIdeal.Points
import proofs.«161287_j22351009808691_1_alg».proof.Proof.Gen.KernelIdeal.Frame
import proofs.«161287_j22351009808691_1_alg».proof.Proof.Gen.ReferenceIdeal
import proofs.«161287_j22351009808691_1_alg».proof.Proof.Gen.Pre_finite_inputs
import proofs.«161287_j22351009808691_1_alg».proof.Proof.Gen.KernelIdeal.Value
import proofs.«161287_j22351009808691_1_alg».proof.Proof.Gen.ReferenceIdeal.Run
import proofs.«161287_j22351009808691_1_alg».proof.Proof.Gen.ReferenceIdeal.Read
import proofs.«161287_j22351009808691_1_alg».proof.Proof.ArrayValue
import proofs.«161287_j22351009808691_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a host program: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the cells of all 65536 nodes, as one function of the arguments they agree on. -/
theorem algebraic : Cert.algebraic_KernelIdeal_ReferenceIdeal := by
  intro m ρ m' ρ' _ hagree
  refine ⟨fun c => Cert.TreeCell.Arr.cellsOfArgs m c, Cert.TreeCell.Arr.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  rw [Cert.TreeCell.Ref.res_eq, e0, e1, e2, e3, e4, e5, e6, e7, e8, e9, e10]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
